-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x384 : Shape := ⟨2, ![128, 384]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S1600000 32) (main_arg2 : IVec S1600000 32) (main_arg3 : FVec F S128x384 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x384 .f32 := Host.absf main_arg3
  let main_cst_0 : FVec F S_ .f32 := constant S_ .f32 0x7F800000#32
  let main_v5 : FVec F S128x384 .f32 := broadcastInDim S128x384 ![] bcast_S_S128x384 main_cst_0
  let main_v6 : IVec S128x384 1 := cmpf .olt main_v4 main_v5
  let main_c_1 : IVec S_ 1 := constantI S_ 1 1#1
  let main_v7 : IVec S_ 1 := (fun x v => Host.reduce IntOp.andi x v reducesTo_S128x384_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S1600000 : Shape := ⟨1, ![1600000]⟩
abbrev S128x384 : Shape := ⟨2, ![128, 384]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S10000x128 : Shape := ⟨2, ![10000, 128]⟩
abbrev S10000x1 : Shape := ⟨2, ![10000, 1]⟩
abbrev S1600000x128 : Shape := ⟨2, ![1600000, 128]⟩
abbrev S100000x384 : Shape := ⟨2, ![100000, 384]⟩
abbrev S384x128 : Shape := ⟨2, ![384, 128]⟩
abbrev S1x128 : Shape := ⟨2, ![1, 128]⟩
abbrev S5000x384 : Shape := ⟨2, ![5000, 384]⟩
abbrev S5000x128 : Shape := ⟨2, ![5000, 128]⟩

abbrev nBuf : Space → Nat
  | .hbm => 49
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x384, .f32⟩
  | .hbm, ⟨4, _⟩ => ⟨S128, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S100000, .f32⟩
  | .hbm, ⟨14, _⟩ => ⟨S100000x1, .f32⟩
  | .hbm, ⟨15, _⟩ => ⟨S100000x128, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x128, .f32⟩
  | .hbm, ⟨45, _⟩ => ⟨S100000x384, .f32⟩
  | .hbm, ⟨46, _⟩ => ⟨S384x128, .f32⟩
  | .hbm, ⟨47, _⟩ => ⟨S1x128, .f32⟩
  | .hbm, ⟨48, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x1, .f32⟩
  | .local _ .vmem, ⟨9, _⟩ => ⟨S10000x1, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S10000x1, .f32⟩
  | .local _ .vmem, ⟨15, _⟩ => ⟨S10000x1, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x1, .f32⟩
  | .local _ .vmem, ⟨21, _⟩ => ⟨S10000x1, .f32⟩
  | .local _ .vmem, ⟨22, _⟩ => ⟨S10000x128, .f32⟩
  | .local _ .vmem, ⟨23, _⟩ => ⟨S10000x128, .f32⟩
  | .local _ .vmem, ⟨24, _⟩ => ⟨S5000x384, .f32⟩
  | .local _ .vmem, ⟨25, _⟩ => ⟨S5000x384, .f32⟩
  | .local _ .vmem, ⟨26, _⟩ => ⟨S384x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x384 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S384x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  shapeCasts_S10000x128_S10000x128 : S10000x128.ShapeCasts S10000x128
  concatenates_S100000x128_S100000x128_S100000x128_S100000x384_d1 : Shape.Concatenates [S100000x128, S100000x128, S100000x128] S100000x384 1
  transposes_S128x384_S384x128_1_0 : S128x384.Transposes [1, 0] S384x128
  shapeCasts_S128_S1x128 : S128.ShapeCasts S1x128
  inb_S5000x384_S5000x384_0_0 : ∀ a, (![0, 0] : Fin 2 → Nat) a + S5000x384.size a ≤ S5000x384.size a
  h_S5000x384 : 0 < S5000x384.numel
  shapeCasts_S5000x384_S5000x384 : S5000x384.ShapeCasts S5000x384
  bitsLt_bf16_f32 : FTy.bits .bf16 < FTy.bits .f32
  inb_S384x128_S384x128_0_0 : ∀ a, (![0, 0] : Fin 2 → Nat) a + S384x128.size a ≤ S384x128.size a
  h_S384x128 : 0 < S384x128.numel
  shapeCasts_S384x128_S384x128 : S384x128.ShapeCasts S384x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x384_S384x128_S5000x128_1_0_0_1_n_n_wf : DotDims.WF S5000x384 S384x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x384.size a ≤ S100000x384.size a
  hwx4_0 : ∀ i : grid4.Coords, EltTy.bits .f32 = 32 ∨ (Rect.block (s := S100000x384) S5000x384.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S384x128.size a ≤ S384x128.size a
  hwx4_1 : ∀ i : grid4.Coords, EltTy.bits .f32 = 32 ∨ (Rect.block (s := S384x128) S384x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x384_S384x128_S5000x128_1_0_0_1_n_n : DotDims S5000x384 S384x128 S5000x128 where
  lhsContracting := [1]
  rhsContracting := [0]
  lhsNonContracting := [0]
  rhsNonContracting := [1]
  lhsBatch := []
  rhsBatch := []
  wf := dot_S5000x384_S384x128_S5000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v18) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v29) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v30) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v31) S5000x384.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v32) S384x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v33) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v34) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x384 : Shape := ⟨2, ![128, 384]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S100000x384 : Shape := ⟨2, ![100000, 384]⟩
abbrev S384x128 : Shape := ⟨2, ![384, 128]⟩
abbrev S1x128 : Shape := ⟨2, ![1, 128]⟩

abbrev nBuf : Space → Nat
  | .hbm => 55
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x384, .f32⟩
  | .hbm, ⟨4, _⟩ => ⟨S128, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S100000, .f32⟩
  | .hbm, ⟨14, _⟩ => ⟨S100000x1, .f32⟩
  | .hbm, ⟨15, _⟩ => ⟨S100000x128, .f32⟩
  | .hbm, ⟨16, _⟩ => ⟨S100000x128, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S100000x384, .f32⟩
  | .hbm, ⟨50, _⟩ => ⟨S384x128, .f32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  concatenates_S100000x128_S100000x128_S100000x128_S100000x384_d1 : Shape.Concatenates [S100000x128, S100000x128, S100000x128] S100000x384 1
  transposes_S128x384_S384x128_1_0 : S128x384.Transposes [1, 0] S384x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x384_S384x128_S100000x128_1_0_0_1_n_n_wf : DotDims.WF S100000x384 S384x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf

class Facts : Prop extends Facts₀ where

variable [Facts]
-- ==== Proof.K.Reg0.lean ====
/-
  Region 0 of the kernel's @main (the first row-scaling pallas_call), at any contents `V` of the
  core's buffers when the region is entered.

  The body multiplies a block of 10000 rows of 128 floats by a column of 10000 per-row factors. Here only its
  memory behaviour matters: it loads whole input blocks, computes one payload from them, and overwrites the whole
  output block with it. So after the body the output's staging buffer is a function of the two input blocks alone
  (`out0_2`), whatever it held before, and the inputs' buffers are untouched. From that: the pipeline's proof data
  (each window's array as the region finds it, each buffer after the body) and the obligation that the body, run
  at any grid point on the buffers the pipeline hands it, re-establishes that data.
-/
import proofs.«107001_j26216480375292_1_alg».proof.Proof.Gen.Kernel.Launch
import proofs.«107001_j26216480375292_1_alg».proof.Proof.Gen.Kernel.Skeleton
import proofs.«107001_j26216480375292_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array that the point works on, read off the array
    as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature rows' staging buffer holds their block at every point: an input the body leaves in place is, at
    a point, what a fetch there would bring — and where it is not fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the column of per-row factors. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 10000×128 block and the whole 10000×1 column, as rectangles. -/
abbrev r0_0 : Rect S10000x128 := Rect.unit (s := S10000x128) ![0, 0] S10000x128.size inb_S10000x128_S10000x128_0_0
abbrev r0_1 : Rect S10000x1 := Rect.unit (s := S10000x1) ![0, 0] S10000x1.size inb_S10000x1_S10000x1_0_0

/-- What the body leaves in the output's staging buffer: its one store, of the payload computed from the two
    loaded input blocks, over the whole block. -/
def out0_2 (x0 : Vec F S10000x128 .f32) (x1 : Vec F S10000x1 .f32) : Vec F S10000x128 .f32 :=
  View.canon [⟨r0_0, k0_pay1 (View.ld x0 r0_0) (View.ld x1 r0_1)⟩]

/-- That store covers the buffer: its rectangle is the whole block. -/
theorem cover0_2 (p0 : Vec F S10000x128 .f32) (y : S10000x128.Idx) :
    ∃ pc ∈ ([⟨r0_0, p0⟩] : List (View.Piece (Elt F) S10000x128 .f32)), y ∈ pc.1.set :=
  View.cover_of_tiled [⟨r0_0, p0⟩] S10000x128.size (by rfl) y

set_option maxHeartbeats 1000000 in
/-- The body's triple: on whole staging memrefs, the inputs' at contents `x0`, `x1` and the output's at anything,
    it runs to its end leaving the inputs as they were and the output at `out0_2 x0 x1`. -/
theorem sound_kernel0 (c : Dev nD) (E : Set ℕ) (i : grid0.Coords) (arg1 : Memref sig .tc .vmem S10000x128 .f32) (harg1 : arg1.IsWhole) (arg2 : Memref sig .tc .vmem S10000x1 .f32) (harg2 : arg2.IsWhole) (arg3 : Memref sig .tc .vmem S10000x128 .f32) (harg3 : arg3.IsWhole)
    (x0 : Vec F S10000x128 .f32) (x1 : Vec F S10000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__scale_kernel i arg1 harg1 arg2 harg2 arg3 harg3) K := by
  simp only [cc0__scale_kernel_eq_skeleton]; unfold cc0__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t`
    each input's buffer still at its block and the output's at `out0_2` of the two input blocks; nothing else
    of the core is touched, nothing is owed, every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the rest of the
    core passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.K.Reg1.lean ====
/-
  Region 1 of the kernel's @main (the second row-scaling pallas_call), at any contents `V` of the
  core's buffers when the region is entered.

  The body multiplies a block of 10000 rows of 128 floats by a column of 10000 per-row factors. Here only its
  memory behaviour matters: it loads whole input blocks, computes one payload from them, and overwrites the whole
  output block with it. So after the body the output's staging buffer is a function of the two input blocks alone
  (`out1_2`), whatever it held before, and the inputs' buffers are untouched. From that: the pipeline's proof data
  (each window's array as the region finds it, each buffer after the body) and the obligation that the body, run
  at any grid point on the buffers the pipeline hands it, re-establishes that data.
-/
import proofs.«107001_j26216480375292_1_alg».proof.Proof.Gen.Kernel.Launch
import proofs.«107001_j26216480375292_1_alg».proof.Proof.Gen.Kernel.Skeleton
import proofs.«107001_j26216480375292_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array that the point works on, read off the array
    as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature rows' staging buffer holds their block at every point: an input the body leaves in place is, at
    a point, what a fetch there would bring — and where it is not fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the column of per-row factors. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole 10000×128 block and the whole 10000×1 column, as rectangles. -/
abbrev r1_0 : Rect S10000x128 := Rect.unit (s := S10000x128) ![0, 0] S10000x128.size inb_S10000x128_S10000x128_0_0
abbrev r1_1 : Rect S10000x1 := Rect.unit (s := S10000x1) ![0, 0] S10000x1.size inb_S10000x1_S10000x1_0_0

/-- What the body leaves in the output's staging buffer: its one store, of the payload computed from the two
    loaded input blocks, over the whole block. -/
def out1_2 (x0 : Vec F S10000x128 .f32) (x1 : Vec F S10000x1 .f32) : Vec F S10000x128 .f32 :=
  View.canon [⟨r1_0, k1_pay1 (View.ld x0 r1_0) (View.ld x1 r1_1)⟩]

/-- That store covers the buffer: its rectangle is the whole block. -/
theorem cover1_2 (p0 : Vec F S10000x128 .f32) (y : S10000x128.Idx) :
    ∃ pc ∈ ([⟨r1_0, p0⟩] : List (View.Piece (Elt F) S10000x128 .f32)), y ∈ pc.1.set :=
  View.cover_of_tiled [⟨r1_0, p0⟩] S10000x128.size (by rfl) y

set_option maxHeartbeats 1000000 in
/-- The body's triple: on whole staging memrefs, the inputs' at contents `x0`, `x1` and the output's at anything,
    it runs to its end leaving the inputs as they were and the output at `out1_2 x0 x1`. -/
theorem sound_kernel1 (c : Dev nD) (E : Set ℕ) (i : grid1.Coords) (arg1 : Memref sig .tc .vmem S10000x128 .f32) (harg1 : arg1.IsWhole) (arg2 : Memref sig .tc .vmem S10000x1 .f32) (harg2 : arg2.IsWhole) (arg3 : Memref sig .tc .vmem S10000x128 .f32) (harg3 : arg3.IsWhole)
    (x0 : Vec F S10000x128 .f32) (x1 : Vec F S10000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__scale_kernel i arg1 harg1 arg2 harg2 arg3 harg3) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core `c`: the arrays as the region finds them; after the body at point `t`
    each input's buffer still at its block and the output's at `out1_2` of the two input blocks; nothing else
    of the core is touched, nothing is owed, every share is full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the rest of the
    core passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.K.Reg2.lean ====
/-
  Region 2 of the kernel's @main (the third row-scaling pallas_call), at any contents `V` of the
  core's buffers when the region is entered.

  The body multiplies a block of 10000 rows of 128 floats by a column of 10000 per-row factors. Here only its
  memory behaviour matters: it loads whole input blocks, computes one payload from them, and overwrites the whole
  output block with it. So after the body the output's staging buffer is a function of the two input blocks alone
  (`out2_2`), whatever it held before, and the inputs' buffers are untouched. From that: the pipeline's proof data
  (each window's array as the region finds it, each buffer after the body) and the obligation that the body, run
  at any grid point on the buffers the pipeline hands it, re-establishes that data.
-/
import proofs.«107001_j26216480375292_1_alg».proof.Proof.Gen.Kernel.Launch
import proofs.«107001_j26216480375292_1_alg».proof.Proof.Gen.Kernel.Skeleton
import proofs.«107001_j26216480375292_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array that the point works on, read off the array
    as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The feature rows' staging buffer holds their block at every point: an input the body leaves in place is, at
    a point, what a fetch there would bring — and where it is not fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the column of per-row factors. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole 10000×128 block and the whole 10000×1 column, as rectangles. -/
abbrev r2_0 : Rect S10000x128 := Rect.unit (s := S10000x128) ![0, 0] S10000x128.size inb_S10000x128_S10000x128_0_0
abbrev r2_1 : Rect S10000x1 := Rect.unit (s := S10000x1) ![0, 0] S10000x1.size inb_S10000x1_S10000x1_0_0

/-- What the body leaves in the output's staging buffer: its one store, of the payload computed from the two
    loaded input blocks, over the whole block. -/
def out2_2 (x0 : Vec F S10000x128 .f32) (x1 : Vec F S10000x1 .f32) : Vec F S10000x128 .f32 :=
  View.canon [⟨r2_0, k2_pay1 (View.ld x0 r2_0) (View.ld x1 r2_1)⟩]

/-- That store covers the buffer: its rectangle is the whole block. -/
theorem cover2_2 (p0 : Vec F S10000x128 .f32) (y : S10000x128.Idx) :
    ∃ pc ∈ ([⟨r2_0, p0⟩] : List (View.Piece (Elt F) S10000x128 .f32)), y ∈ pc.1.set :=
  View.cover_of_tiled [⟨r2_0, p0⟩] S10000x128.size (by rfl) y

set_option maxHeartbeats 1000000 in
/-- The body's triple: on whole staging memrefs, the inputs' at contents `x0`, `x1` and the output's at anything,
    it runs to its end leaving the inputs as they were and the output at `out2_2 x0 x1`. -/
theorem sound_kernel2 (c : Dev nD) (E : Set ℕ) (i : grid2.Coords) (arg1 : Memref sig .tc .vmem S10000x128 .f32) (harg1 : arg1.IsWhole) (arg2 : Memref sig .tc .vmem S10000x1 .f32) (harg2 : arg2.IsWhole) (arg3 : Memref sig .tc .vmem S10000x128 .f32) (harg3 : arg3.IsWhole)
    (x0 : Vec F S10000x128 .f32) (x1 : Vec F S10000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__scale_kernel i arg1 harg1 arg2 harg2 arg3 harg3) K := by
  simp only [cc2__scale_kernel_eq_skeleton]; unfold cc2__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the region finds them; after the body at point `t`
    each input's buffer still at its block and the output's at `out2_2` of the two input blocks; nothing else
    of the core is touched, nothing is owed, every share is full. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the rest of the
    core passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.K.Reg3.lean ====
/-
  Region 3 of the kernel's @main (the fourth row-scaling pallas_call), at any contents `V` of the
  core's buffers when the region is entered.

  The body multiplies a block of 10000 rows of 128 floats by a column of 10000 per-row factors. Here only its
  memory behaviour matters: it loads whole input blocks, computes one payload from them, and overwrites the whole
  output block with it. So after the body the output's staging buffer is a function of the two input blocks alone
  (`out3_2`), whatever it held before, and the inputs' buffers are untouched. From that: the pipeline's proof data
  (each window's array as the region finds it, each buffer after the body) and the obligation that the body, run
  at any grid point on the buffers the pipeline hands it, re-establishes that data.
-/
import proofs.«107001_j26216480375292_1_alg».proof.Proof.Gen.Kernel.Launch
import proofs.«107001_j26216480375292_1_alg».proof.Proof.Gen.Kernel.Skeleton
import proofs.«107001_j26216480375292_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array that the point works on, read off the array
    as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The feature rows' staging buffer holds their block at every point: an input the body leaves in place is, at
    a point, what a fetch there would bring — and where it is not fetched its block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for the column of per-row factors. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole 10000×128 block and the whole 10000×1 column, as rectangles. -/
abbrev r3_0 : Rect S10000x128 := Rect.unit (s := S10000x128) ![0, 0] S10000x128.size inb_S10000x128_S10000x128_0_0
abbrev r3_1 : Rect S10000x1 := Rect.unit (s := S10000x1) ![0, 0] S10000x1.size inb_S10000x1_S10000x1_0_0

/-- What the body leaves in the output's staging buffer: its one store, of the payload computed from the two
    loaded input blocks, over the whole block. -/
def out3_2 (x0 : Vec F S10000x128 .f32) (x1 : Vec F S10000x1 .f32) : Vec F S10000x128 .f32 :=
  View.canon [⟨r3_0, k3_pay1 (View.ld x0 r3_0) (View.ld x1 r3_1)⟩]

/-- That store covers the buffer: its rectangle is the whole block. -/
theorem cover3_2 (p0 : Vec F S10000x128 .f32) (y : S10000x128.Idx) :
    ∃ pc ∈ ([⟨r3_0, p0⟩] : List (View.Piece (Elt F) S10000x128 .f32)), y ∈ pc.1.set :=
  View.cover_of_tiled [⟨r3_0, p0⟩] S10000x128.size (by rfl) y

set_option maxHeartbeats 1000000 in
/-- The body's triple: on whole staging memrefs, the inputs' at contents `x0`, `x1` and the output's at anything,
    it runs to its end leaving the inputs as they were and the output at `out3_2 x0 x1`. -/
theorem sound_kernel3 (c : Dev nD) (E : Set ℕ) (i : grid3.Coords) (arg1 : Memref sig .tc .vmem S10000x128 .f32) (harg1 : arg1.IsWhole) (arg2 : Memref sig .tc .vmem S10000x1 .f32) (harg2 : arg2.IsWhole) (arg3 : Memref sig .tc .vmem S10000x128 .f32) (harg3 : arg3.IsWhole)
    (x0 : Vec F S10000x128 .f32) (x1 : Vec F S10000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__scale_kernel i arg1 harg1 arg2 harg2 arg3 harg3) K := by
  simp only [cc3__scale_kernel_eq_skeleton]; unfold cc3__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The pipeline's proof data on core `c`: the arrays as the region finds them; after the body at point `t`
    each input's buffer still at its block and the output's at `out3_2` of the two input blocks; nothing else
    of the core is touched, nothing is owed, every share is full. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the rest of the
    core passes through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Frame

end
-- ==== Proof.K.Reg4.lean ====
/-
  Region 4 of the kernel's @main (the projection pallas_call), at any contents `V` of the core's
  buffers when the region is entered.

  At each of its 20 grid points the body loads a block of 5000 rows of the 384 stacked features, the whole
  384×128 weight matrix and the 1×128 bias row, and overwrites the 5000×128 output block with one payload computed
  from the three. So after the body the output's staging buffer is a function of the three input blocks alone
  (`out4_3`) and the inputs' buffers are untouched; the weight and bias windows keep one block index over the whole
  grid, so where they are not fetched again their buffers still hold that block. From that: the pipeline's proof
  data and the obligation that the body, at any grid point, re-establishes it.
-/
import proofs.«107001_j26216480375292_1_alg».proof.Proof.Gen.Kernel.Launch
import proofs.«107001_j26216480375292_1_alg».proof.Proof.Gen.Kernel.Skeleton
import proofs.«107001_j26216480375292_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The stacked features' staging buffer holds their block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weight matrix's buffer holds the matrix at every point: fetched once, its block index never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The same for the bias row. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The four whole blocks, as rectangles. -/
abbrev r4_0 : Rect S5000x384 := Rect.unit (s := S5000x384) ![0, 0] S5000x384.size inb_S5000x384_S5000x384_0_0
abbrev r4_1 : Rect S384x128 := Rect.unit (s := S384x128) ![0, 0] S384x128.size inb_S384x128_S384x128_0_0
abbrev r4_2 : Rect S1x128 := Rect.unit (s := S1x128) ![0, 0] S1x128.size inb_S1x128_S1x128_0_0
abbrev r4_3 : Rect S5000x128 := Rect.unit (s := S5000x128) ![0, 0] S5000x128.size inb_S5000x128_S5000x128_0_0

/-- What the body leaves in the output's staging buffer: its one store, of the payload computed from the three
    loaded input blocks, over the whole block. -/
def out4_3 (x0 : Vec F S5000x384 .f32) (x1 : Vec F S384x128 .f32) (x2 : Vec F S1x128 .f32) : Vec F S5000x128 .f32 :=
  View.canon [⟨r4_3, k4_pay1 (View.ld x0 r4_0) (View.ld x1 r4_1) (View.ld x2 r4_2)⟩]

/-- That store covers the buffer. -/
theorem cover4_3 (p0 : Vec F S5000x128 .f32) (y : S5000x128.Idx) :
    ∃ pc ∈ ([⟨r4_3, p0⟩] : List (View.Piece (Elt F) S5000x128 .f32)), y ∈ pc.1.set :=
  View.cover_of_tiled [⟨r4_3, p0⟩] S5000x128.size (by rfl) y

set_option maxHeartbeats 1000000 in
/-- The body's triple: inputs at `x0`, `x1`, `x2`, the output at anything; it ends with the inputs as they
    were and the output at `out4_3 x0 x1 x2`. -/
theorem sound_kernel4 (c : Dev nD) (E : Set ℕ) (i : grid4.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The pipeline's proof data on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Frame

end
-- ==== Proof.K.Fold.lean ====
/-
  The contents of the core's buffers at every boundary of the kernel's @main, as a fold from the launch
  memory: a stretch of host operations applies them in order; a pallas_call leaves its windows' arrays at what its
  pipeline writes back and every other buffer alone. On top of the fold: the pipelines' proof data, each at the
  contents its region is entered with, and what rides beside the buffers from item to item (the generator
  register at some state, the core owing nothing).
-/
import proofs.«107001_j26216480375292_1_alg».proof.Proof.K.Reg0
import proofs.«107001_j26216480375292_1_alg».proof.Proof.K.Reg1
import proofs.«107001_j26216480375292_1_alg».proof.Proof.K.Reg2
import proofs.«107001_j26216480375292_1_alg».proof.Proof.K.Reg3
import proofs.«107001_j26216480375292_1_alg».proof.Proof.K.Reg4
import proofs.«107001_j26216480375292_1_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- Core `c`'s buffers when region 0 is entered. -/
abbrev Wi0 : Dev nD → Valuation τ sig (Elt F) := fun c => StableHlo.after hostOps0 (W0 m ρ c)
/-- The same read at the TensorCore's references: what region 0's proof data take. -/
abbrev Vi0 : (c : Dev nD) → (b : Ref sig .tc) → Buf (Elt F) ((c : Thread nD τ).loc b) := fun c b => Wi0 m ρ c b
/-- At region 0's exit: its windows' arrays at what the pipeline leaves there (an input's as entered, the output's
    write-backs folded over the grid), every other buffer as entered. -/
def Wo0 (c : Dev nD) : Valuation τ sig (Elt F) :=
  Pipeline.withArrays spec0 c (Wi0 m ρ c) fun w => (dat0 (Vi0 m ρ) c).arrAt w cfg0.N
theorem Wo0_arr (c : Dev nD) (w : Fin cfg0.W) :
    Wo0 m ρ c (Proc.devRef .tc (Pipeline.arrRef spec0 w)) = (dat0 (Vi0 m ρ) c).arrAt w cfg0.N := by
  unfold Wo0; exact Pipeline.withArrays_arr spec0 launch0.win.arr_inj c _ _ w
theorem Wo0_of_ne (c : Dev nD) (b : Ref sig .tc) (hb : ∀ w, Pipeline.arrRef spec0 w ≠ b) :
    Wo0 m ρ c (Proc.devRef .tc b) = Wi0 m ρ c (Proc.devRef .tc b) := by
  unfold Wo0; exact Pipeline.withArrays_of_ne spec0 c _ _ b hb
/-- The same read at the TensorCore's references. -/
abbrev Vo0 : (c : Dev nD) → (b : Ref sig .tc) → Buf (Elt F) ((c : Thread nD τ).loc b) := fun c b => Wo0 m ρ c b
theorem hF0 (c : Dev nD) (w : Fin cfg0.W) : (dat0 (Vi0 m ρ) c).arrAt w cfg0.N = Vo0 m ρ c (Pipeline.arrRef spec0 w) :=
  (Wo0_arr m ρ c w).symm
theorem hrest0 (c : Dev nD) : ∀ b, b ∉ Finset.univ.image (Pipeline.arrRef spec0) → Vo0 m ρ c b = Vi0 m ρ c b :=
  fun b hb => Wo0_of_ne m ρ c b fun w e => hb (Finset.mem_image.mpr ⟨w, Finset.mem_univ _, e⟩)

/-- Core `c`'s buffers when region 1 is entered. -/
abbrev Wi1 : Dev nD → Valuation τ sig (Elt F) := fun c => StableHlo.after hostOps1 (Wo0 m ρ c)
/-- The same read at the TensorCore's references: what region 1's proof data take. -/
abbrev Vi1 : (c : Dev nD) → (b : Ref sig .tc) → Buf (Elt F) ((c : Thread nD τ).loc b) := fun c b => Wi1 m ρ c b
/-- At region 1's exit: its windows' arrays at what the pipeline leaves there (an input's as entered, the output's
    write-backs folded over the grid), every other buffer as entered. -/
def Wo1 (c : Dev nD) : Valuation τ sig (Elt F) :=
  Pipeline.withArrays spec1 c (Wi1 m ρ c) fun w => (dat1 (Vi1 m ρ) c).arrAt w cfg1.N
theorem Wo1_arr (c : Dev nD) (w : Fin cfg1.W) :
    Wo1 m ρ c (Proc.devRef .tc (Pipeline.arrRef spec1 w)) = (dat1 (Vi1 m ρ) c).arrAt w cfg1.N := by
  unfold Wo1; exact Pipeline.withArrays_arr spec1 launch1.win.arr_inj c _ _ w
theorem Wo1_of_ne (c : Dev nD) (b : Ref sig .tc) (hb : ∀ w, Pipeline.arrRef spec1 w ≠ b) :
    Wo1 m ρ c (Proc.devRef .tc b) = Wi1 m ρ c (Proc.devRef .tc b) := by
  unfold Wo1; exact Pipeline.withArrays_of_ne spec1 c _ _ b hb
/-- The same read at the TensorCore's references. -/
abbrev Vo1 : (c : Dev nD) → (b : Ref sig .tc) → Buf (Elt F) ((c : Thread nD τ).loc b) := fun c b => Wo1 m ρ c b
theorem hF1 (c : Dev nD) (w : Fin cfg1.W) : (dat1 (Vi1 m ρ) c).arrAt w cfg1.N = Vo1 m ρ c (Pipeline.arrRef spec1 w) :=
  (Wo1_arr m ρ c w).symm
theorem hrest1 (c : Dev nD) : ∀ b, b ∉ Finset.univ.image (Pipeline.arrRef spec1) → Vo1 m ρ c b = Vi1 m ρ c b :=
  fun b hb => Wo1_of_ne m ρ c b fun w e => hb (Finset.mem_image.mpr ⟨w, Finset.mem_univ _, e⟩)

/-- Core `c`'s buffers when region 2 is entered. -/
abbrev Wi2 : Dev nD → Valuation τ sig (Elt F) := fun c => Wo1 m ρ c
/-- The same read at the TensorCore's references: what region 2's proof data take. -/
abbrev Vi2 : (c : Dev nD) → (b : Ref sig .tc) → Buf (Elt F) ((c : Thread nD τ).loc b) := fun c b => Wi2 m ρ c b
/-- At region 2's exit: its windows' arrays at what the pipeline leaves there (an input's as entered, the output's
    write-backs folded over the grid), every other buffer as entered. -/
def Wo2 (c : Dev nD) : Valuation τ sig (Elt F) :=
  Pipeline.withArrays spec2 c (Wi2 m ρ c) fun w => (dat2 (Vi2 m ρ) c).arrAt w cfg2.N
theorem Wo2_arr (c : Dev nD) (w : Fin cfg2.W) :
    Wo2 m ρ c (Proc.devRef .tc (Pipeline.arrRef spec2 w)) = (dat2 (Vi2 m ρ) c).arrAt w cfg2.N := by
  unfold Wo2; exact Pipeline.withArrays_arr spec2 launch2.win.arr_inj c _ _ w
theorem Wo2_of_ne (c : Dev nD) (b : Ref sig .tc) (hb : ∀ w, Pipeline.arrRef spec2 w ≠ b) :
    Wo2 m ρ c (Proc.devRef .tc b) = Wi2 m ρ c (Proc.devRef .tc b) := by
  unfold Wo2; exact Pipeline.withArrays_of_ne spec2 c _ _ b hb
/-- The same read at the TensorCore's references. -/
abbrev Vo2 : (c : Dev nD) → (b : Ref sig .tc) → Buf (Elt F) ((c : Thread nD τ).loc b) := fun c b => Wo2 m ρ c b
theorem hF2 (c : Dev nD) (w : Fin cfg2.W) : (dat2 (Vi2 m ρ) c).arrAt w cfg2.N = Vo2 m ρ c (Pipeline.arrRef spec2 w) :=
  (Wo2_arr m ρ c w).symm
theorem hrest2 (c : Dev nD) : ∀ b, b ∉ Finset.univ.image (Pipeline.arrRef spec2) → Vo2 m ρ c b = Vi2 m ρ c b :=
  fun b hb => Wo2_of_ne m ρ c b fun w e => hb (Finset.mem_image.mpr ⟨w, Finset.mem_univ _, e⟩)

/-- Core `c`'s buffers when region 3 is entered. -/
abbrev Wi3 : Dev nD → Valuation τ sig (Elt F) := fun c => StableHlo.after hostOps3 (Wo2 m ρ c)
/-- The same read at the TensorCore's references: what region 3's proof data take. -/
abbrev Vi3 : (c : Dev nD) → (b : Ref sig .tc) → Buf (Elt F) ((c : Thread nD τ).loc b) := fun c b => Wi3 m ρ c b
/-- At region 3's exit: its windows' arrays at what the pipeline leaves there (an input's as entered, the output's
    write-backs folded over the grid), every other buffer as entered. -/
def Wo3 (c : Dev nD) : Valuation τ sig (Elt F) :=
  Pipeline.withArrays spec3 c (Wi3 m ρ c) fun w => (dat3 (Vi3 m ρ) c).arrAt w cfg3.N
theorem Wo3_arr (c : Dev nD) (w : Fin cfg3.W) :
    Wo3 m ρ c (Proc.devRef .tc (Pipeline.arrRef spec3 w)) = (dat3 (Vi3 m ρ) c).arrAt w cfg3.N := by
  unfold Wo3; exact Pipeline.withArrays_arr spec3 launch3.win.arr_inj c _ _ w
theorem Wo3_of_ne (c : Dev nD) (b : Ref sig .tc) (hb : ∀ w, Pipeline.arrRef spec3 w ≠ b) :
    Wo3 m ρ c (Proc.devRef .tc b) = Wi3 m ρ c (Proc.devRef .tc b) := by
  unfold Wo3; exact Pipeline.withArrays_of_ne spec3 c _ _ b hb
/-- The same read at the TensorCore's references. -/
abbrev Vo3 : (c : Dev nD) → (b : Ref sig .tc) → Buf (Elt F) ((c : Thread nD τ).loc b) := fun c b => Wo3 m ρ c b
theorem hF3 (c : Dev nD) (w : Fin cfg3.W) : (dat3 (Vi3 m ρ) c).arrAt w cfg3.N = Vo3 m ρ c (Pipeline.arrRef spec3 w) :=
  (Wo3_arr m ρ c w).symm
theorem hrest3 (c : Dev nD) : ∀ b, b ∉ Finset.univ.image (Pipeline.arrRef spec3) → Vo3 m ρ c b = Vi3 m ρ c b :=
  fun b hb => Wo3_of_ne m ρ c b fun w e => hb (Finset.mem_image.mpr ⟨w, Finset.mem_univ _, e⟩)

/-- Core `c`'s buffers when region 4 is entered. -/
abbrev Wi4 : Dev nD → Valuation τ sig (Elt F) := fun c => StableHlo.after hostOps4 (Wo3 m ρ c)
/-- The same read at the TensorCore's references: what region 4's proof data take. -/
abbrev Vi4 : (c : Dev nD) → (b : Ref sig .tc) → Buf (Elt F) ((c : Thread nD τ).loc b) := fun c b => Wi4 m ρ c b
/-- At region 4's exit: its windows' arrays at what the pipeline leaves there (an input's as entered, the output's
    write-backs folded over the grid), every other buffer as entered. -/
def Wo4 (c : Dev nD) : Valuation τ sig (Elt F) :=
  Pipeline.withArrays spec4 c (Wi4 m ρ c) fun w => (dat4 (Vi4 m ρ) c).arrAt w cfg4.N
theorem Wo4_arr (c : Dev nD) (w : Fin cfg4.W) :
    Wo4 m ρ c (Proc.devRef .tc (Pipeline.arrRef spec4 w)) = (dat4 (Vi4 m ρ) c).arrAt w cfg4.N := by
  unfold Wo4; exact Pipeline.withArrays_arr spec4 launch4.win.arr_inj c _ _ w
theorem Wo4_of_ne (c : Dev nD) (b : Ref sig .tc) (hb : ∀ w, Pipeline.arrRef spec4 w ≠ b) :
    Wo4 m ρ c (Proc.devRef .tc b) = Wi4 m ρ c (Proc.devRef .tc b) := by
  unfold Wo4; exact Pipeline.withArrays_of_ne spec4 c _ _ b hb
/-- The same read at the TensorCore's references. -/
abbrev Vo4 : (c : Dev nD) → (b : Ref sig .tc) → Buf (Elt F) ((c : Thread nD τ).loc b) := fun c b => Wo4 m ρ c b
theorem hF4 (c : Dev nD) (w : Fin cfg4.W) : (dat4 (Vi4 m ρ) c).arrAt w cfg4.N = Vo4 m ρ c (Pipeline.arrRef spec4 w) :=
  (Wo4_arr m ρ c w).symm
theorem hrest4 (c : Dev nD) : ∀ b, b ∉ Finset.univ.image (Pipeline.arrRef spec4) → Vo4 m ρ c b = Vi4 m ρ c b :=
  fun b hb => Wo4_of_ne m ρ c b fun w e => hb (Finset.mem_image.mpr ⟨w, Finset.mem_univ _, e⟩)

/-! ## A buffer an item does not write keeps its contents -/

theorem Wi0_keep (c : Dev nD) (r : Ref sig .tc) (h : r ∉ hostOps0_W) : Wi0 m ρ c r = W0 m ρ c r :=
  StableHlo.after_of_writes_sub hostOps0 _ hostOps0_writes h
theorem Wi1_keep (c : Dev nD) (r : Ref sig .tc) (h : r ∉ hostOps1_W) : Wi1 m ρ c r = Wo0 m ρ c r :=
  StableHlo.after_of_writes_sub hostOps1 _ hostOps1_writes h
theorem Wi3_keep (c : Dev nD) (r : Ref sig .tc) (h : r ∉ hostOps3_W) : Wi3 m ρ c r = Wo2 m ρ c r :=
  StableHlo.after_of_writes_sub hostOps3 _ hostOps3_writes h
theorem Wi4_keep (c : Dev nD) (r : Ref sig .tc) (h : r ∉ hostOps4_W) : Wi4 m ρ c r = Wo3 m ρ c r :=
  StableHlo.after_of_writes_sub hostOps4 _ hostOps4_writes h

/-! ## The proof data family and the thread state -/

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (Vi0 m ρ) c
  | ⟨1, _⟩ => fun c => dat1 (Vi1 m ρ) c
  | ⟨2, _⟩ => fun c => dat2 (Vi2 m ρ) c
  | ⟨3, _⟩ => fun c => dat3 (Vi3 m ρ) c
  | ⟨4, _⟩ => fun c => dat4 (Vi4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues,
    at nothing. -/
abbrev R (c : Dev nD) : sProp 𝕄 := iprop((∃ r, prngReg c r) ∗ ∃ W, owes (c : Thread nD τ) (0 : CellTallies nD τ sig Unit) W)
/-- A stretch of host operations as a segment, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (Wo4 m ρ c) ∗ ∃ r, prngReg c r)

end Cert.Kernel.Frame

end
-- ==== Proof.K.Seg0.lean ====
/-
  Region 0 of the kernel's @main as one item of the run: entered with every unscoped buffer of the core at
  the contents `Wi0`, left with them at `Wo0`. Its windows' arrays are split out of the unscoped buffers at the
  entry and put back, at what the pipeline leaves, at the exit; the generator register passes through the region's
  invariant untouched; the kernel signals no one, so nothing is owed and it has no semaphore of its own.
-/
import proofs.«107001_j26216480375292_1_alg».proof.Proof.K.Fold

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vi0 m ρ) c).loose
  hwaits := Pipeline.hwaits_of_owed_zero _ _ _ _ L lv 0 fun _ _ => rfl
  pre c := iprop(StableHlo.held (c : Thread nD τ) (Pipeline.ucRefs τ sig) (Wi0 m ρ c) ∗ R c)
  post c := iprop(StableHlo.held (c : Thread nD τ) (Pipeline.ucRefs τ sig) (Wo0 m ρ c) ∗ R c)
  X c := iprop(∃ r, prngReg c r)
  Y c := iprop(∃ r, prngReg c r)
  Z c := Pipeline.unscopedRest (Ix := Unit) (Name := ℕ) (U := UR sig nD τ) (Lvl := ℕ) spec0 c (Vi0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vi0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vi0 m ρ c) (Vo0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frame

end
-- ==== Proof.K.Seg1.lean ====
/-
  Region 1 of the kernel's @main as one item of the run: entered with every unscoped buffer of the core at
  the contents `Wi1`, left with them at `Wo1`. Its windows' arrays are split out of the unscoped buffers at the
  entry and put back, at what the pipeline leaves, at the exit; the generator register passes through the region's
  invariant untouched; the kernel signals no one, so nothing is owed and it has no semaphore of its own.
-/
import proofs.«107001_j26216480375292_1_alg».proof.Proof.K.Fold

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vi1 m ρ) c).loose
  hwaits := Pipeline.hwaits_of_owed_zero _ _ _ _ L lv 1 fun _ _ => rfl
  pre c := iprop(StableHlo.held (c : Thread nD τ) (Pipeline.ucRefs τ sig) (Wi1 m ρ c) ∗ R c)
  post c := iprop(StableHlo.held (c : Thread nD τ) (Pipeline.ucRefs τ sig) (Wo1 m ρ c) ∗ R c)
  X c := iprop(∃ r, prngReg c r)
  Y c := iprop(∃ r, prngReg c r)
  Z c := Pipeline.unscopedRest (Ix := Unit) (Name := ℕ) (U := UR sig nD τ) (Lvl := ℕ) spec1 c (Vi1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vi1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vi1 m ρ c) (Vo1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frame

end
-- ==== Proof.K.Seg2.lean ====
/-
  Region 2 of the kernel's @main as one item of the run: entered with every unscoped buffer of the core at
  the contents `Wi2`, left with them at `Wo2`. Its windows' arrays are split out of the unscoped buffers at the
  entry and put back, at what the pipeline leaves, at the exit; the generator register passes through the region's
  invariant untouched; the kernel signals no one, so nothing is owed and it has no semaphore of its own.
-/
import proofs.«107001_j26216480375292_1_alg».proof.Proof.K.Fold

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vi2 m ρ) c).loose
  hwaits := Pipeline.hwaits_of_owed_zero _ _ _ _ L lv 2 fun _ _ => rfl
  pre c := iprop(StableHlo.held (c : Thread nD τ) (Pipeline.ucRefs τ sig) (Wi2 m ρ c) ∗ R c)
  post c := iprop(StableHlo.held (c : Thread nD τ) (Pipeline.ucRefs τ sig) (Wo2 m ρ c) ∗ R c)
  X c := iprop(∃ r, prngReg c r)
  Y c := iprop(∃ r, prngReg c r)
  Z c := Pipeline.unscopedRest (Ix := Unit) (Name := ℕ) (U := UR sig nD τ) (Lvl := ℕ) spec2 c (Vi2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vi2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vi2 m ρ c) (Vo2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frame

end
-- ==== Proof.K.Seg3.lean ====
/-
  Region 3 of the kernel's @main as one item of the run: entered with every unscoped buffer of the core at
  the contents `Wi3`, left with them at `Wo3`. Its windows' arrays are split out of the unscoped buffers at the
  entry and put back, at what the pipeline leaves, at the exit; the generator register passes through the region's
  invariant untouched; the kernel signals no one, so nothing is owed and it has no semaphore of its own.
-/
import proofs.«107001_j26216480375292_1_alg».proof.Proof.K.Fold

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vi3 m ρ) c).loose
  hwaits := Pipeline.hwaits_of_owed_zero _ _ _ _ L lv 3 fun _ _ => rfl
  pre c := iprop(StableHlo.held (c : Thread nD τ) (Pipeline.ucRefs τ sig) (Wi3 m ρ c) ∗ R c)
  post c := iprop(StableHlo.held (c : Thread nD τ) (Pipeline.ucRefs τ sig) (Wo3 m ρ c) ∗ R c)
  X c := iprop(∃ r, prngReg c r)
  Y c := iprop(∃ r, prngReg c r)
  Z c := Pipeline.unscopedRest (Ix := Unit) (Name := ℕ) (U := UR sig nD τ) (Lvl := ℕ) spec3 c (Vi3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vi3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vi3 m ρ c) (Vo3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frame

end
-- ==== Proof.K.Seg4.lean ====
/-
  Region 4 of the kernel's @main as one item of the run: entered with every unscoped buffer of the core at
  the contents `Wi4`, left with them at `Wo4`. Its windows' arrays are split out of the unscoped buffers at the
  entry and put back, at what the pipeline leaves, at the exit; the generator register passes through the region's
  invariant untouched; the kernel signals no one, so nothing is owed and it has no semaphore of its own.
-/
import proofs.«107001_j26216480375292_1_alg».proof.Proof.K.Fold

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vi4 m ρ) c).loose
  hwaits := Pipeline.hwaits_of_owed_zero _ _ _ _ L lv 4 fun _ _ => rfl
  pre c := iprop(StableHlo.held (c : Thread nD τ) (Pipeline.ucRefs τ sig) (Wi4 m ρ c) ∗ R c)
  post c := iprop(StableHlo.held (c : Thread nD τ) (Pipeline.ucRefs τ sig) (Wo4 m ρ c) ∗ R c)
  X c := iprop(∃ r, prngReg c r)
  Y c := iprop(∃ r, prngReg c r)
  Z c := Pipeline.unscopedRest (Ix := Unit) (Name := ℕ) (U := UR sig nD τ) (Lvl := ℕ) spec4 c (Vi4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vi4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vi4 m ρ c) (Vo4 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frame

end
-- ==== Proof.K.Launch.lean ====
/-
  The run of the kernel's @main, item by item: four stretches of host operations and five pallas_calls, each
  entered with the core's unscoped buffers at the contents the item before left. Every weakly fair execution
  terminates, nothing faults, and at the end every unscoped buffer of the core holds the last boundary's contents
  `Wo4` — the arguments and the result among them.
-/
import proofs.«107001_j26216480375292_1_alg».proof.Proof.K.Seg0
import proofs.«107001_j26216480375292_1_alg».proof.Proof.K.Seg1
import proofs.«107001_j26216480375292_1_alg».proof.Proof.K.Seg2
import proofs.«107001_j26216480375292_1_alg».proof.Proof.K.Seg3
import proofs.«107001_j26216480375292_1_alg».proof.Proof.K.Seg4

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's nine items in order. -/
abbrev ksegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (Wo0 m ρ)),
    .region (reg1 m ρ),
    .region (reg2 m ρ),
    .host (hseg hostOps3 hostOps3_sub hostOps3_fresh (Wo2 m ρ)),
    .region (reg3 m ρ),
    .host (hseg hostOps4 hostOps4_sub hostOps4_fresh (Wo3 m ρ)),
    .region (reg4 m ρ) ]

/-- @main is the run of those items. -/
theorem main_run (c : Dev nD) : main (F := F) c = Pipeline.Seg.run (ksegs m ρ) := (main_chain c).trans (by chain_rfl)

set_option backward.isDefEq.respectTransparency.types false in
/-- From any memory with zero counters every weakly fair execution of @main terminates without a fault, and in
    the final state every unscoped buffer of every core holds the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wo4 m ρ c b) :=
  Pipeline.θ_run_regions_kit (pcfgs (F := F)) adm (pdats m ρ) () cellOf_inj emb₁ defs₀ 𝒱₀ L lv m ρ main (ksegs m ρ)
    (fun c Q => by rw [main_run m ρ c])
    (by simp only [ksegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (Wo4 m ρ c) ∗ R c) ⊢ _
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wo4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wo4 m ρ c) s')
      isplitl [Hh] <;> iassumption)
    (hQ := fun s h c => h c)

end Cert.Kernel.Frame

end
-- ==== Proof.K.Keep.lean ====
/-
  The five argument arrays hold their launch contents at every boundary of the kernel's @main: no stretch
  of host operations writes one, and a pallas_call either does not touch one or only reads it (the features, through
  the first call's input window, whose array the pipeline leaves as entered).
-/
import proofs.«107001_j26216480375292_1_alg».proof.Proof.K.Fold

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem Wi0_main_arg0 (c : Dev nD) : Wi0 m ρ c (Proc.devRef .tc main_arg0) = m ((c : Thread nD τ).loc main_arg0) :=
  (Wi0_keep m ρ c main_arg0 (by decide)).trans rfl
theorem Wo0_main_arg0 (c : Dev nD) : Wo0 m ρ c (Proc.devRef .tc main_arg0) = m ((c : Thread nD τ).loc main_arg0) :=
  (Wo0_arr m ρ c 0).trans ((((dat0 (Vi0 m ρ) c).arrAt_in 0 rfl _).trans (A_eq0 (Vi0 m ρ) c 0)).trans (Wi0_main_arg0 m ρ c))
theorem Wi1_main_arg0 (c : Dev nD) : Wi1 m ρ c (Proc.devRef .tc main_arg0) = m ((c : Thread nD τ).loc main_arg0) :=
  (Wi1_keep m ρ c main_arg0 (by decide)).trans (Wo0_main_arg0 m ρ c)
theorem Wo1_main_arg0 (c : Dev nD) : Wo1 m ρ c (Proc.devRef .tc main_arg0) = m ((c : Thread nD τ).loc main_arg0) :=
  (Wo1_of_ne m ρ c main_arg0 (by decide)).trans (Wi1_main_arg0 m ρ c)
theorem Wo2_main_arg0 (c : Dev nD) : Wo2 m ρ c (Proc.devRef .tc main_arg0) = m ((c : Thread nD τ).loc main_arg0) :=
  (Wo2_of_ne m ρ c main_arg0 (by decide)).trans (Wo1_main_arg0 m ρ c)
theorem Wi3_main_arg0 (c : Dev nD) : Wi3 m ρ c (Proc.devRef .tc main_arg0) = m ((c : Thread nD τ).loc main_arg0) :=
  (Wi3_keep m ρ c main_arg0 (by decide)).trans (Wo2_main_arg0 m ρ c)
theorem Wo3_main_arg0 (c : Dev nD) : Wo3 m ρ c (Proc.devRef .tc main_arg0) = m ((c : Thread nD τ).loc main_arg0) :=
  (Wo3_of_ne m ρ c main_arg0 (by decide)).trans (Wi3_main_arg0 m ρ c)
theorem Wi4_main_arg0 (c : Dev nD) : Wi4 m ρ c (Proc.devRef .tc main_arg0) = m ((c : Thread nD τ).loc main_arg0) :=
  (Wi4_keep m ρ c main_arg0 (by decide)).trans (Wo3_main_arg0 m ρ c)
theorem Wo4_main_arg0 (c : Dev nD) : Wo4 m ρ c (Proc.devRef .tc main_arg0) = m ((c : Thread nD τ).loc main_arg0) :=
  (Wo4_of_ne m ρ c main_arg0 (by decide)).trans (Wi4_main_arg0 m ρ c)

theorem Wi0_main_arg1 (c : Dev nD) : Wi0 m ρ c (Proc.devRef .tc main_arg1) = m ((c : Thread nD τ).loc main_arg1) :=
  (Wi0_keep m ρ c main_arg1 (by decide)).trans rfl
theorem Wo0_main_arg1 (c : Dev nD) : Wo0 m ρ c (Proc.devRef .tc main_arg1) = m ((c : Thread nD τ).loc main_arg1) :=
  (Wo0_of_ne m ρ c main_arg1 (by decide)).trans (Wi0_main_arg1 m ρ c)
theorem Wi1_main_arg1 (c : Dev nD) : Wi1 m ρ c (Proc.devRef .tc main_arg1) = m ((c : Thread nD τ).loc main_arg1) :=
  (Wi1_keep m ρ c main_arg1 (by decide)).trans (Wo0_main_arg1 m ρ c)
theorem Wo1_main_arg1 (c : Dev nD) : Wo1 m ρ c (Proc.devRef .tc main_arg1) = m ((c : Thread nD τ).loc main_arg1) :=
  (Wo1_of_ne m ρ c main_arg1 (by decide)).trans (Wi1_main_arg1 m ρ c)
theorem Wo2_main_arg1 (c : Dev nD) : Wo2 m ρ c (Proc.devRef .tc main_arg1) = m ((c : Thread nD τ).loc main_arg1) :=
  (Wo2_of_ne m ρ c main_arg1 (by decide)).trans (Wo1_main_arg1 m ρ c)
theorem Wi3_main_arg1 (c : Dev nD) : Wi3 m ρ c (Proc.devRef .tc main_arg1) = m ((c : Thread nD τ).loc main_arg1) :=
  (Wi3_keep m ρ c main_arg1 (by decide)).trans (Wo2_main_arg1 m ρ c)
theorem Wo3_main_arg1 (c : Dev nD) : Wo3 m ρ c (Proc.devRef .tc main_arg1) = m ((c : Thread nD τ).loc main_arg1) :=
  (Wo3_of_ne m ρ c main_arg1 (by decide)).trans (Wi3_main_arg1 m ρ c)
theorem Wi4_main_arg1 (c : Dev nD) : Wi4 m ρ c (Proc.devRef .tc main_arg1) = m ((c : Thread nD τ).loc main_arg1) :=
  (Wi4_keep m ρ c main_arg1 (by decide)).trans (Wo3_main_arg1 m ρ c)
theorem Wo4_main_arg1 (c : Dev nD) : Wo4 m ρ c (Proc.devRef .tc main_arg1) = m ((c : Thread nD τ).loc main_arg1) :=
  (Wo4_of_ne m ρ c main_arg1 (by decide)).trans (Wi4_main_arg1 m ρ c)

theorem Wi0_main_arg2 (c : Dev nD) : Wi0 m ρ c (Proc.devRef .tc main_arg2) = m ((c : Thread nD τ).loc main_arg2) :=
  (Wi0_keep m ρ c main_arg2 (by decide)).trans rfl
theorem Wo0_main_arg2 (c : Dev nD) : Wo0 m ρ c (Proc.devRef .tc main_arg2) = m ((c : Thread nD τ).loc main_arg2) :=
  (Wo0_of_ne m ρ c main_arg2 (by decide)).trans (Wi0_main_arg2 m ρ c)
theorem Wi1_main_arg2 (c : Dev nD) : Wi1 m ρ c (Proc.devRef .tc main_arg2) = m ((c : Thread nD τ).loc main_arg2) :=
  (Wi1_keep m ρ c main_arg2 (by decide)).trans (Wo0_main_arg2 m ρ c)
theorem Wo1_main_arg2 (c : Dev nD) : Wo1 m ρ c (Proc.devRef .tc main_arg2) = m ((c : Thread nD τ).loc main_arg2) :=
  (Wo1_of_ne m ρ c main_arg2 (by decide)).trans (Wi1_main_arg2 m ρ c)
theorem Wo2_main_arg2 (c : Dev nD) : Wo2 m ρ c (Proc.devRef .tc main_arg2) = m ((c : Thread nD τ).loc main_arg2) :=
  (Wo2_of_ne m ρ c main_arg2 (by decide)).trans (Wo1_main_arg2 m ρ c)
theorem Wi3_main_arg2 (c : Dev nD) : Wi3 m ρ c (Proc.devRef .tc main_arg2) = m ((c : Thread nD τ).loc main_arg2) :=
  (Wi3_keep m ρ c main_arg2 (by decide)).trans (Wo2_main_arg2 m ρ c)
theorem Wo3_main_arg2 (c : Dev nD) : Wo3 m ρ c (Proc.devRef .tc main_arg2) = m ((c : Thread nD τ).loc main_arg2) :=
  (Wo3_of_ne m ρ c main_arg2 (by decide)).trans (Wi3_main_arg2 m ρ c)
theorem Wi4_main_arg2 (c : Dev nD) : Wi4 m ρ c (Proc.devRef .tc main_arg2) = m ((c : Thread nD τ).loc main_arg2) :=
  (Wi4_keep m ρ c main_arg2 (by decide)).trans (Wo3_main_arg2 m ρ c)
theorem Wo4_main_arg2 (c : Dev nD) : Wo4 m ρ c (Proc.devRef .tc main_arg2) = m ((c : Thread nD τ).loc main_arg2) :=
  (Wo4_of_ne m ρ c main_arg2 (by decide)).trans (Wi4_main_arg2 m ρ c)

theorem Wi0_main_arg3 (c : Dev nD) : Wi0 m ρ c (Proc.devRef .tc main_arg3) = m ((c : Thread nD τ).loc main_arg3) :=
  (Wi0_keep m ρ c main_arg3 (by decide)).trans rfl
theorem Wo0_main_arg3 (c : Dev nD) : Wo0 m ρ c (Proc.devRef .tc main_arg3) = m ((c : Thread nD τ).loc main_arg3) :=
  (Wo0_of_ne m ρ c main_arg3 (by decide)).trans (Wi0_main_arg3 m ρ c)
theorem Wi1_main_arg3 (c : Dev nD) : Wi1 m ρ c (Proc.devRef .tc main_arg3) = m ((c : Thread nD τ).loc main_arg3) :=
  (Wi1_keep m ρ c main_arg3 (by decide)).trans (Wo0_main_arg3 m ρ c)
theorem Wo1_main_arg3 (c : Dev nD) : Wo1 m ρ c (Proc.devRef .tc main_arg3) = m ((c : Thread nD τ).loc main_arg3) :=
  (Wo1_of_ne m ρ c main_arg3 (by decide)).trans (Wi1_main_arg3 m ρ c)
theorem Wo2_main_arg3 (c : Dev nD) : Wo2 m ρ c (Proc.devRef .tc main_arg3) = m ((c : Thread nD τ).loc main_arg3) :=
  (Wo2_of_ne m ρ c main_arg3 (by decide)).trans (Wo1_main_arg3 m ρ c)
theorem Wi3_main_arg3 (c : Dev nD) : Wi3 m ρ c (Proc.devRef .tc main_arg3) = m ((c : Thread nD τ).loc main_arg3) :=
  (Wi3_keep m ρ c main_arg3 (by decide)).trans (Wo2_main_arg3 m ρ c)
theorem Wo3_main_arg3 (c : Dev nD) : Wo3 m ρ c (Proc.devRef .tc main_arg3) = m ((c : Thread nD τ).loc main_arg3) :=
  (Wo3_of_ne m ρ c main_arg3 (by decide)).trans (Wi3_main_arg3 m ρ c)
theorem Wi4_main_arg3 (c : Dev nD) : Wi4 m ρ c (Proc.devRef .tc main_arg3) = m ((c : Thread nD τ).loc main_arg3) :=
  (Wi4_keep m ρ c main_arg3 (by decide)).trans (Wo3_main_arg3 m ρ c)
theorem Wo4_main_arg3 (c : Dev nD) : Wo4 m ρ c (Proc.devRef .tc main_arg3) = m ((c : Thread nD τ).loc main_arg3) :=
  (Wo4_of_ne m ρ c main_arg3 (by decide)).trans (Wi4_main_arg3 m ρ c)

theorem Wi0_main_arg4 (c : Dev nD) : Wi0 m ρ c (Proc.devRef .tc main_arg4) = m ((c : Thread nD τ).loc main_arg4) :=
  (Wi0_keep m ρ c main_arg4 (by decide)).trans rfl
theorem Wo0_main_arg4 (c : Dev nD) : Wo0 m ρ c (Proc.devRef .tc main_arg4) = m ((c : Thread nD τ).loc main_arg4) :=
  (Wo0_of_ne m ρ c main_arg4 (by decide)).trans (Wi0_main_arg4 m ρ c)
theorem Wi1_main_arg4 (c : Dev nD) : Wi1 m ρ c (Proc.devRef .tc main_arg4) = m ((c : Thread nD τ).loc main_arg4) :=
  (Wi1_keep m ρ c main_arg4 (by decide)).trans (Wo0_main_arg4 m ρ c)
theorem Wo1_main_arg4 (c : Dev nD) : Wo1 m ρ c (Proc.devRef .tc main_arg4) = m ((c : Thread nD τ).loc main_arg4) :=
  (Wo1_of_ne m ρ c main_arg4 (by decide)).trans (Wi1_main_arg4 m ρ c)
theorem Wo2_main_arg4 (c : Dev nD) : Wo2 m ρ c (Proc.devRef .tc main_arg4) = m ((c : Thread nD τ).loc main_arg4) :=
  (Wo2_of_ne m ρ c main_arg4 (by decide)).trans (Wo1_main_arg4 m ρ c)
theorem Wi3_main_arg4 (c : Dev nD) : Wi3 m ρ c (Proc.devRef .tc main_arg4) = m ((c : Thread nD τ).loc main_arg4) :=
  (Wi3_keep m ρ c main_arg4 (by decide)).trans (Wo2_main_arg4 m ρ c)
theorem Wo3_main_arg4 (c : Dev nD) : Wo3 m ρ c (Proc.devRef .tc main_arg4) = m ((c : Thread nD τ).loc main_arg4) :=
  (Wo3_of_ne m ρ c main_arg4 (by decide)).trans (Wi3_main_arg4 m ρ c)
theorem Wi4_main_arg4 (c : Dev nD) : Wi4 m ρ c (Proc.devRef .tc main_arg4) = m ((c : Thread nD τ).loc main_arg4) :=
  (Wi4_keep m ρ c main_arg4 (by decide)).trans (Wo3_main_arg4 m ρ c)
theorem Wo4_main_arg4 (c : Dev nD) : Wo4 m ρ c (Proc.devRef .tc main_arg4) = m ((c : Thread nD τ).loc main_arg4) :=
  (Wo4_of_ne m ρ c main_arg4 (by decide)).trans (Wi4_main_arg4 m ρ c)

end Cert.Kernel.Frame

end
-- ==== Proof.K.Args.lean ====
/-
  The frame of the kernel's @main: every weakly fair execution terminates without a fault, and each of the
  five argument arrays ends holding what it held at launch — the run's last contents read at the arguments.
-/
import proofs.«107001_j26216480375292_1_alg».proof.Proof.K.Launch
import proofs.«107001_j26216480375292_1_alg».proof.Proof.K.Keep

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (Wo4_main_arg0 m ρ c),
     (h c _ (mem_uc main_arg1 (by decide))).trans (Wo4_main_arg1 m ρ c),
     (h c _ (mem_uc main_arg2 (by decide))).trans (Wo4_main_arg2 m ρ c),
     (h c _ (mem_uc main_arg3 (by decide))).trans (Wo4_main_arg3 m ρ c),
     (h c _ (mem_uc main_arg4 (by decide))).trans (Wo4_main_arg4 m ρ c)⟩) (run_all m ρ)

end Cert.Kernel.Frame

end
-- ==== Proof.KI.Reg0.lean ====
/-
  Region 0 of the idealized kernel's @main (the first row-scaling pallas_call), at any contents `V` of the
  core's buffers when the region is entered.

  The body multiplies a block of 10000 rows of 128 floats by a column of 10000 per-row factors. Here only its
  memory behaviour matters: it loads whole input blocks, computes one payload from them, and overwrites the whole
  output block with it. So after the body the output's staging buffer is a function of the two input blocks alone
  (`out0_2`), whatever it held before, and the inputs' buffers are untouched. From that: the pipeline's proof data
  (each window's array as the region finds it, each buffer after the body) and the obligation that the body, run
  at any grid point on the buffers the pipeline hands it, re-establishes that data.
-/
import proofs.«107001_j26216480375292_1_alg».proof.Proof.Gen.KernelIdeal.Launch
import proofs.«107001_j26216480375292_1_alg».proof.Proof.Gen.KernelIdeal.Skeleton
import proofs.«107001_j26216480375292_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array that the point works on, read off the array
    as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature rows' staging buffer holds their block at every point: an input the body leaves in place is, at
    a point, what a fetch there would bring — and where it is not fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the column of per-row factors. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 10000×128 block and the whole 10000×1 column, as rectangles. -/
abbrev r0_0 : Rect S10000x128 := Rect.unit (s := S10000x128) ![0, 0] S10000x128.size inb_S10000x128_S10000x128_0_0
abbrev r0_1 : Rect S10000x1 := Rect.unit (s := S10000x1) ![0, 0] S10000x1.size inb_S10000x1_S10000x1_0_0

/-- What the body leaves in the output's staging buffer: its one store, of the payload computed from the two
    loaded input blocks, over the whole block. -/
def out0_2 (x0 : Vec F S10000x128 .f32) (x1 : Vec F S10000x1 .f32) : Vec F S10000x128 .f32 :=
  View.canon [⟨r0_0, k0_pay1 (View.ld x0 r0_0) (View.ld x1 r0_1)⟩]

/-- That store covers the buffer: its rectangle is the whole block. -/
theorem cover0_2 (p0 : Vec F S10000x128 .f32) (y : S10000x128.Idx) :
    ∃ pc ∈ ([⟨r0_0, p0⟩] : List (View.Piece (Elt F) S10000x128 .f32)), y ∈ pc.1.set :=
  View.cover_of_tiled [⟨r0_0, p0⟩] S10000x128.size (by rfl) y

set_option maxHeartbeats 1000000 in
/-- The body's triple: on whole staging memrefs, the inputs' at contents `x0`, `x1` and the output's at anything,
    it runs to its end leaving the inputs as they were and the output at `out0_2 x0 x1`. -/
theorem sound_kernel0 (c : Dev nD) (E : Set ℕ) (i : grid0.Coords) (arg1 : Memref sig .tc .vmem S10000x128 .f32) (harg1 : arg1.IsWhole) (arg2 : Memref sig .tc .vmem S10000x1 .f32) (harg2 : arg2.IsWhole) (arg3 : Memref sig .tc .vmem S10000x128 .f32) (harg3 : arg3.IsWhole)
    (x0 : Vec F S10000x128 .f32) (x1 : Vec F S10000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__scale_kernel i arg1 harg1 arg2 harg2 arg3 harg3) K := by
  simp only [cc0__scale_kernel_eq_skeleton]; unfold cc0__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t`
    each input's buffer still at its block and the output's at `out0_2` of the two input blocks; nothing else
    of the core is touched, nothing is owed, every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the rest of the
    core passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KI.Reg1.lean ====
/-
  Region 1 of the idealized kernel's @main (the second row-scaling pallas_call), at any contents `V` of the
  core's buffers when the region is entered.

  The body multiplies a block of 10000 rows of 128 floats by a column of 10000 per-row factors. Here only its
  memory behaviour matters: it loads whole input blocks, computes one payload from them, and overwrites the whole
  output block with it. So after the body the output's staging buffer is a function of the two input blocks alone
  (`out1_2`), whatever it held before, and the inputs' buffers are untouched. From that: the pipeline's proof data
  (each window's array as the region finds it, each buffer after the body) and the obligation that the body, run
  at any grid point on the buffers the pipeline hands it, re-establishes that data.
-/
import proofs.«107001_j26216480375292_1_alg».proof.Proof.Gen.KernelIdeal.Launch
import proofs.«107001_j26216480375292_1_alg».proof.Proof.Gen.KernelIdeal.Skeleton
import proofs.«107001_j26216480375292_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array that the point works on, read off the array
    as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature rows' staging buffer holds their block at every point: an input the body leaves in place is, at
    a point, what a fetch there would bring — and where it is not fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the column of per-row factors. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole 10000×128 block and the whole 10000×1 column, as rectangles. -/
abbrev r1_0 : Rect S10000x128 := Rect.unit (s := S10000x128) ![0, 0] S10000x128.size inb_S10000x128_S10000x128_0_0
abbrev r1_1 : Rect S10000x1 := Rect.unit (s := S10000x1) ![0, 0] S10000x1.size inb_S10000x1_S10000x1_0_0

/-- What the body leaves in the output's staging buffer: its one store, of the payload computed from the two
    loaded input blocks, over the whole block. -/
def out1_2 (x0 : Vec F S10000x128 .f32) (x1 : Vec F S10000x1 .f32) : Vec F S10000x128 .f32 :=
  View.canon [⟨r1_0, k1_pay1 (View.ld x0 r1_0) (View.ld x1 r1_1)⟩]

/-- That store covers the buffer: its rectangle is the whole block. -/
theorem cover1_2 (p0 : Vec F S10000x128 .f32) (y : S10000x128.Idx) :
    ∃ pc ∈ ([⟨r1_0, p0⟩] : List (View.Piece (Elt F) S10000x128 .f32)), y ∈ pc.1.set :=
  View.cover_of_tiled [⟨r1_0, p0⟩] S10000x128.size (by rfl) y

set_option maxHeartbeats 1000000 in
/-- The body's triple: on whole staging memrefs, the inputs' at contents `x0`, `x1` and the output's at anything,
    it runs to its end leaving the inputs as they were and the output at `out1_2 x0 x1`. -/
theorem sound_kernel1 (c : Dev nD) (E : Set ℕ) (i : grid1.Coords) (arg1 : Memref sig .tc .vmem S10000x128 .f32) (harg1 : arg1.IsWhole) (arg2 : Memref sig .tc .vmem S10000x1 .f32) (harg2 : arg2.IsWhole) (arg3 : Memref sig .tc .vmem S10000x128 .f32) (harg3 : arg3.IsWhole)
    (x0 : Vec F S10000x128 .f32) (x1 : Vec F S10000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__scale_kernel i arg1 harg1 arg2 harg2 arg3 harg3) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core `c`: the arrays as the region finds them; after the body at point `t`
    each input's buffer still at its block and the output's at `out1_2` of the two input blocks; nothing else
    of the core is touched, nothing is owed, every share is full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the rest of the
    core passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KI.Reg2.lean ====
/-
  Region 2 of the idealized kernel's @main (the third row-scaling pallas_call), at any contents `V` of the
  core's buffers when the region is entered.

  The body multiplies a block of 10000 rows of 128 floats by a column of 10000 per-row factors. Here only its
  memory behaviour matters: it loads whole input blocks, computes one payload from them, and overwrites the whole
  output block with it. So after the body the output's staging buffer is a function of the two input blocks alone
  (`out2_2`), whatever it held before, and the inputs' buffers are untouched. From that: the pipeline's proof data
  (each window's array as the region finds it, each buffer after the body) and the obligation that the body, run
  at any grid point on the buffers the pipeline hands it, re-establishes that data.
-/
import proofs.«107001_j26216480375292_1_alg».proof.Proof.Gen.KernelIdeal.Launch
import proofs.«107001_j26216480375292_1_alg».proof.Proof.Gen.KernelIdeal.Skeleton
import proofs.«107001_j26216480375292_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array that the point works on, read off the array
    as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The feature rows' staging buffer holds their block at every point: an input the body leaves in place is, at
    a point, what a fetch there would bring — and where it is not fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the column of per-row factors. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole 10000×128 block and the whole 10000×1 column, as rectangles. -/
abbrev r2_0 : Rect S10000x128 := Rect.unit (s := S10000x128) ![0, 0] S10000x128.size inb_S10000x128_S10000x128_0_0
abbrev r2_1 : Rect S10000x1 := Rect.unit (s := S10000x1) ![0, 0] S10000x1.size inb_S10000x1_S10000x1_0_0

/-- What the body leaves in the output's staging buffer: its one store, of the payload computed from the two
    loaded input blocks, over the whole block. -/
def out2_2 (x0 : Vec F S10000x128 .f32) (x1 : Vec F S10000x1 .f32) : Vec F S10000x128 .f32 :=
  View.canon [⟨r2_0, k2_pay1 (View.ld x0 r2_0) (View.ld x1 r2_1)⟩]

/-- That store covers the buffer: its rectangle is the whole block. -/
theorem cover2_2 (p0 : Vec F S10000x128 .f32) (y : S10000x128.Idx) :
    ∃ pc ∈ ([⟨r2_0, p0⟩] : List (View.Piece (Elt F) S10000x128 .f32)), y ∈ pc.1.set :=
  View.cover_of_tiled [⟨r2_0, p0⟩] S10000x128.size (by rfl) y

set_option maxHeartbeats 1000000 in
/-- The body's triple: on whole staging memrefs, the inputs' at contents `x0`, `x1` and the output's at anything,
    it runs to its end leaving the inputs as they were and the output at `out2_2 x0 x1`. -/
theorem sound_kernel2 (c : Dev nD) (E : Set ℕ) (i : grid2.Coords) (arg1 : Memref sig .tc .vmem S10000x128 .f32) (harg1 : arg1.IsWhole) (arg2 : Memref sig .tc .vmem S10000x1 .f32) (harg2 : arg2.IsWhole) (arg3 : Memref sig .tc .vmem S10000x128 .f32) (harg3 : arg3.IsWhole)
    (x0 : Vec F S10000x128 .f32) (x1 : Vec F S10000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__scale_kernel i arg1 harg1 arg2 harg2 arg3 harg3) K := by
  simp only [cc2__scale_kernel_eq_skeleton]; unfold cc2__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the region finds them; after the body at point `t`
    each input's buffer still at its block and the output's at `out2_2` of the two input blocks; nothing else
    of the core is touched, nothing is owed, every share is full. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the rest of the
    core passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.KI.Reg3.lean ====
/-
  Region 3 of the idealized kernel's @main (the fourth row-scaling pallas_call), at any contents `V` of the
  core's buffers when the region is entered.

  The body multiplies a block of 10000 rows of 128 floats by a column of 10000 per-row factors. Here only its
  memory behaviour matters: it loads whole input blocks, computes one payload from them, and overwrites the whole
  output block with it. So after the body the output's staging buffer is a function of the two input blocks alone
  (`out3_2`), whatever it held before, and the inputs' buffers are untouched. From that: the pipeline's proof data
  (each window's array as the region finds it, each buffer after the body) and the obligation that the body, run
  at any grid point on the buffers the pipeline hands it, re-establishes that data.
-/
import proofs.«107001_j26216480375292_1_alg».proof.Proof.Gen.KernelIdeal.Launch
import proofs.«107001_j26216480375292_1_alg».proof.Proof.Gen.KernelIdeal.Skeleton
import proofs.«107001_j26216480375292_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array that the point works on, read off the array
    as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The feature rows' staging buffer holds their block at every point: an input the body leaves in place is, at
    a point, what a fetch there would bring — and where it is not fetched its block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for the column of per-row factors. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole 10000×128 block and the whole 10000×1 column, as rectangles. -/
abbrev r3_0 : Rect S10000x128 := Rect.unit (s := S10000x128) ![0, 0] S10000x128.size inb_S10000x128_S10000x128_0_0
abbrev r3_1 : Rect S10000x1 := Rect.unit (s := S10000x1) ![0, 0] S10000x1.size inb_S10000x1_S10000x1_0_0

/-- What the body leaves in the output's staging buffer: its one store, of the payload computed from the two
    loaded input blocks, over the whole block. -/
def out3_2 (x0 : Vec F S10000x128 .f32) (x1 : Vec F S10000x1 .f32) : Vec F S10000x128 .f32 :=
  View.canon [⟨r3_0, k3_pay1 (View.ld x0 r3_0) (View.ld x1 r3_1)⟩]

/-- That store covers the buffer: its rectangle is the whole block. -/
theorem cover3_2 (p0 : Vec F S10000x128 .f32) (y : S10000x128.Idx) :
    ∃ pc ∈ ([⟨r3_0, p0⟩] : List (View.Piece (Elt F) S10000x128 .f32)), y ∈ pc.1.set :=
  View.cover_of_tiled [⟨r3_0, p0⟩] S10000x128.size (by rfl) y

set_option maxHeartbeats 1000000 in
/-- The body's triple: on whole staging memrefs, the inputs' at contents `x0`, `x1` and the output's at anything,
    it runs to its end leaving the inputs as they were and the output at `out3_2 x0 x1`. -/
theorem sound_kernel3 (c : Dev nD) (E : Set ℕ) (i : grid3.Coords) (arg1 : Memref sig .tc .vmem S10000x128 .f32) (harg1 : arg1.IsWhole) (arg2 : Memref sig .tc .vmem S10000x1 .f32) (harg2 : arg2.IsWhole) (arg3 : Memref sig .tc .vmem S10000x128 .f32) (harg3 : arg3.IsWhole)
    (x0 : Vec F S10000x128 .f32) (x1 : Vec F S10000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__scale_kernel i arg1 harg1 arg2 harg2 arg3 harg3) K := by
  simp only [cc3__scale_kernel_eq_skeleton]; unfold cc3__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The pipeline's proof data on core `c`: the arrays as the region finds them; after the body at point `t`
    each input's buffer still at its block and the output's at `out3_2` of the two input blocks; nothing else
    of the core is touched, nothing is owed, every share is full. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the rest of the
    core passes through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Frame

end
-- ==== Proof.KI.Reg4.lean ====
/-
  Region 4 of the idealized kernel's @main (the projection pallas_call), at any contents `V` of the core's
  buffers when the region is entered.

  At each of its 20 grid points the body loads a block of 5000 rows of the 384 stacked features, the whole
  384×128 weight matrix and the 1×128 bias row, and overwrites the 5000×128 output block with one payload computed
  from the three. So after the body the output's staging buffer is a function of the three input blocks alone
  (`out4_3`) and the inputs' buffers are untouched; the weight and bias windows keep one block index over the whole
  grid, so where they are not fetched again their buffers still hold that block. From that: the pipeline's proof
  data and the obligation that the body, at any grid point, re-establishes it.
-/
import proofs.«107001_j26216480375292_1_alg».proof.Proof.Gen.KernelIdeal.Launch
import proofs.«107001_j26216480375292_1_alg».proof.Proof.Gen.KernelIdeal.Skeleton
import proofs.«107001_j26216480375292_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The stacked features' staging buffer holds their block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weight matrix's buffer holds the matrix at every point: fetched once, its block index never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The same for the bias row. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The four whole blocks, as rectangles. -/
abbrev r4_0 : Rect S5000x384 := Rect.unit (s := S5000x384) ![0, 0] S5000x384.size inb_S5000x384_S5000x384_0_0
abbrev r4_1 : Rect S384x128 := Rect.unit (s := S384x128) ![0, 0] S384x128.size inb_S384x128_S384x128_0_0
abbrev r4_2 : Rect S1x128 := Rect.unit (s := S1x128) ![0, 0] S1x128.size inb_S1x128_S1x128_0_0
abbrev r4_3 : Rect S5000x128 := Rect.unit (s := S5000x128) ![0, 0] S5000x128.size inb_S5000x128_S5000x128_0_0

/-- What the body leaves in the output's staging buffer: its one store, of the payload computed from the three
    loaded input blocks, over the whole block. -/
def out4_3 (x0 : Vec F S5000x384 .f32) (x1 : Vec F S384x128 .f32) (x2 : Vec F S1x128 .f32) : Vec F S5000x128 .f32 :=
  View.canon [⟨r4_3, k4_pay1 (View.ld x0 r4_0) (View.ld x1 r4_1) (View.ld x2 r4_2)⟩]

/-- That store covers the buffer. -/
theorem cover4_3 (p0 : Vec F S5000x128 .f32) (y : S5000x128.Idx) :
    ∃ pc ∈ ([⟨r4_3, p0⟩] : List (View.Piece (Elt F) S5000x128 .f32)), y ∈ pc.1.set :=
  View.cover_of_tiled [⟨r4_3, p0⟩] S5000x128.size (by rfl) y

set_option maxHeartbeats 1000000 in
/-- The body's triple: inputs at `x0`, `x1`, `x2`, the output at anything; it ends with the inputs as they
    were and the output at `out4_3 x0 x1 x2`. -/
theorem sound_kernel4 (c : Dev nD) (E : Set ℕ) (i : grid4.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The pipeline's proof data on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Frame

end
-- ==== Proof.KI.Fold.lean ====
/-
  The contents of the core's buffers at every boundary of the idealized kernel's @main, as a fold from the launch
  memory: a stretch of host operations applies them in order; a pallas_call leaves its windows' arrays at what its
  pipeline writes back and every other buffer alone. On top of the fold: the pipelines' proof data, each at the
  contents its region is entered with, and what rides beside the buffers from item to item (the generator
  register at some state, the core owing nothing).
-/
import proofs.«107001_j26216480375292_1_alg».proof.Proof.KI.Reg0
import proofs.«107001_j26216480375292_1_alg».proof.Proof.KI.Reg1
import proofs.«107001_j26216480375292_1_alg».proof.Proof.KI.Reg2
import proofs.«107001_j26216480375292_1_alg».proof.Proof.KI.Reg3
import proofs.«107001_j26216480375292_1_alg».proof.Proof.KI.Reg4
import proofs.«107001_j26216480375292_1_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- Core `c`'s buffers when region 0 is entered. -/
abbrev Wi0 : Dev nD → Valuation τ sig (Elt F) := fun c => StableHlo.after hostOps0 (W0 m ρ c)
/-- The same read at the TensorCore's references: what region 0's proof data take. -/
abbrev Vi0 : (c : Dev nD) → (b : Ref sig .tc) → Buf (Elt F) ((c : Thread nD τ).loc b) := fun c b => Wi0 m ρ c b
/-- At region 0's exit: its windows' arrays at what the pipeline leaves there (an input's as entered, the output's
    write-backs folded over the grid), every other buffer as entered. -/
def Wo0 (c : Dev nD) : Valuation τ sig (Elt F) :=
  Pipeline.withArrays spec0 c (Wi0 m ρ c) fun w => (dat0 (Vi0 m ρ) c).arrAt w cfg0.N
theorem Wo0_arr (c : Dev nD) (w : Fin cfg0.W) :
    Wo0 m ρ c (Proc.devRef .tc (Pipeline.arrRef spec0 w)) = (dat0 (Vi0 m ρ) c).arrAt w cfg0.N := by
  unfold Wo0; exact Pipeline.withArrays_arr spec0 launch0.win.arr_inj c _ _ w
theorem Wo0_of_ne (c : Dev nD) (b : Ref sig .tc) (hb : ∀ w, Pipeline.arrRef spec0 w ≠ b) :
    Wo0 m ρ c (Proc.devRef .tc b) = Wi0 m ρ c (Proc.devRef .tc b) := by
  unfold Wo0; exact Pipeline.withArrays_of_ne spec0 c _ _ b hb
/-- The same read at the TensorCore's references. -/
abbrev Vo0 : (c : Dev nD) → (b : Ref sig .tc) → Buf (Elt F) ((c : Thread nD τ).loc b) := fun c b => Wo0 m ρ c b
theorem hF0 (c : Dev nD) (w : Fin cfg0.W) : (dat0 (Vi0 m ρ) c).arrAt w cfg0.N = Vo0 m ρ c (Pipeline.arrRef spec0 w) :=
  (Wo0_arr m ρ c w).symm
theorem hrest0 (c : Dev nD) : ∀ b, b ∉ Finset.univ.image (Pipeline.arrRef spec0) → Vo0 m ρ c b = Vi0 m ρ c b :=
  fun b hb => Wo0_of_ne m ρ c b fun w e => hb (Finset.mem_image.mpr ⟨w, Finset.mem_univ _, e⟩)

/-- Core `c`'s buffers when region 1 is entered. -/
abbrev Wi1 : Dev nD → Valuation τ sig (Elt F) := fun c => StableHlo.after hostOps1 (Wo0 m ρ c)
/-- The same read at the TensorCore's references: what region 1's proof data take. -/
abbrev Vi1 : (c : Dev nD) → (b : Ref sig .tc) → Buf (Elt F) ((c : Thread nD τ).loc b) := fun c b => Wi1 m ρ c b
/-- At region 1's exit: its windows' arrays at what the pipeline leaves there (an input's as entered, the output's
    write-backs folded over the grid), every other buffer as entered. -/
def Wo1 (c : Dev nD) : Valuation τ sig (Elt F) :=
  Pipeline.withArrays spec1 c (Wi1 m ρ c) fun w => (dat1 (Vi1 m ρ) c).arrAt w cfg1.N
theorem Wo1_arr (c : Dev nD) (w : Fin cfg1.W) :
    Wo1 m ρ c (Proc.devRef .tc (Pipeline.arrRef spec1 w)) = (dat1 (Vi1 m ρ) c).arrAt w cfg1.N := by
  unfold Wo1; exact Pipeline.withArrays_arr spec1 launch1.win.arr_inj c _ _ w
theorem Wo1_of_ne (c : Dev nD) (b : Ref sig .tc) (hb : ∀ w, Pipeline.arrRef spec1 w ≠ b) :
    Wo1 m ρ c (Proc.devRef .tc b) = Wi1 m ρ c (Proc.devRef .tc b) := by
  unfold Wo1; exact Pipeline.withArrays_of_ne spec1 c _ _ b hb
/-- The same read at the TensorCore's references. -/
abbrev Vo1 : (c : Dev nD) → (b : Ref sig .tc) → Buf (Elt F) ((c : Thread nD τ).loc b) := fun c b => Wo1 m ρ c b
theorem hF1 (c : Dev nD) (w : Fin cfg1.W) : (dat1 (Vi1 m ρ) c).arrAt w cfg1.N = Vo1 m ρ c (Pipeline.arrRef spec1 w) :=
  (Wo1_arr m ρ c w).symm
theorem hrest1 (c : Dev nD) : ∀ b, b ∉ Finset.univ.image (Pipeline.arrRef spec1) → Vo1 m ρ c b = Vi1 m ρ c b :=
  fun b hb => Wo1_of_ne m ρ c b fun w e => hb (Finset.mem_image.mpr ⟨w, Finset.mem_univ _, e⟩)

/-- Core `c`'s buffers when region 2 is entered. -/
abbrev Wi2 : Dev nD → Valuation τ sig (Elt F) := fun c => Wo1 m ρ c
/-- The same read at the TensorCore's references: what region 2's proof data take. -/
abbrev Vi2 : (c : Dev nD) → (b : Ref sig .tc) → Buf (Elt F) ((c : Thread nD τ).loc b) := fun c b => Wi2 m ρ c b
/-- At region 2's exit: its windows' arrays at what the pipeline leaves there (an input's as entered, the output's
    write-backs folded over the grid), every other buffer as entered. -/
def Wo2 (c : Dev nD) : Valuation τ sig (Elt F) :=
  Pipeline.withArrays spec2 c (Wi2 m ρ c) fun w => (dat2 (Vi2 m ρ) c).arrAt w cfg2.N
theorem Wo2_arr (c : Dev nD) (w : Fin cfg2.W) :
    Wo2 m ρ c (Proc.devRef .tc (Pipeline.arrRef spec2 w)) = (dat2 (Vi2 m ρ) c).arrAt w cfg2.N := by
  unfold Wo2; exact Pipeline.withArrays_arr spec2 launch2.win.arr_inj c _ _ w
theorem Wo2_of_ne (c : Dev nD) (b : Ref sig .tc) (hb : ∀ w, Pipeline.arrRef spec2 w ≠ b) :
    Wo2 m ρ c (Proc.devRef .tc b) = Wi2 m ρ c (Proc.devRef .tc b) := by
  unfold Wo2; exact Pipeline.withArrays_of_ne spec2 c _ _ b hb
/-- The same read at the TensorCore's references. -/
abbrev Vo2 : (c : Dev nD) → (b : Ref sig .tc) → Buf (Elt F) ((c : Thread nD τ).loc b) := fun c b => Wo2 m ρ c b
theorem hF2 (c : Dev nD) (w : Fin cfg2.W) : (dat2 (Vi2 m ρ) c).arrAt w cfg2.N = Vo2 m ρ c (Pipeline.arrRef spec2 w) :=
  (Wo2_arr m ρ c w).symm
theorem hrest2 (c : Dev nD) : ∀ b, b ∉ Finset.univ.image (Pipeline.arrRef spec2) → Vo2 m ρ c b = Vi2 m ρ c b :=
  fun b hb => Wo2_of_ne m ρ c b fun w e => hb (Finset.mem_image.mpr ⟨w, Finset.mem_univ _, e⟩)

/-- Core `c`'s buffers when region 3 is entered. -/
abbrev Wi3 : Dev nD → Valuation τ sig (Elt F) := fun c => StableHlo.after hostOps3 (Wo2 m ρ c)
/-- The same read at the TensorCore's references: what region 3's proof data take. -/
abbrev Vi3 : (c : Dev nD) → (b : Ref sig .tc) → Buf (Elt F) ((c : Thread nD τ).loc b) := fun c b => Wi3 m ρ c b
/-- At region 3's exit: its windows' arrays at what the pipeline leaves there (an input's as entered, the output's
    write-backs folded over the grid), every other buffer as entered. -/
def Wo3 (c : Dev nD) : Valuation τ sig (Elt F) :=
  Pipeline.withArrays spec3 c (Wi3 m ρ c) fun w => (dat3 (Vi3 m ρ) c).arrAt w cfg3.N
theorem Wo3_arr (c : Dev nD) (w : Fin cfg3.W) :
    Wo3 m ρ c (Proc.devRef .tc (Pipeline.arrRef spec3 w)) = (dat3 (Vi3 m ρ) c).arrAt w cfg3.N := by
  unfold Wo3; exact Pipeline.withArrays_arr spec3 launch3.win.arr_inj c _ _ w
theorem Wo3_of_ne (c : Dev nD) (b : Ref sig .tc) (hb : ∀ w, Pipeline.arrRef spec3 w ≠ b) :
    Wo3 m ρ c (Proc.devRef .tc b) = Wi3 m ρ c (Proc.devRef .tc b) := by
  unfold Wo3; exact Pipeline.withArrays_of_ne spec3 c _ _ b hb
/-- The same read at the TensorCore's references. -/
abbrev Vo3 : (c : Dev nD) → (b : Ref sig .tc) → Buf (Elt F) ((c : Thread nD τ).loc b) := fun c b => Wo3 m ρ c b
theorem hF3 (c : Dev nD) (w : Fin cfg3.W) : (dat3 (Vi3 m ρ) c).arrAt w cfg3.N = Vo3 m ρ c (Pipeline.arrRef spec3 w) :=
  (Wo3_arr m ρ c w).symm
theorem hrest3 (c : Dev nD) : ∀ b, b ∉ Finset.univ.image (Pipeline.arrRef spec3) → Vo3 m ρ c b = Vi3 m ρ c b :=
  fun b hb => Wo3_of_ne m ρ c b fun w e => hb (Finset.mem_image.mpr ⟨w, Finset.mem_univ _, e⟩)

/-- Core `c`'s buffers when region 4 is entered. -/
abbrev Wi4 : Dev nD → Valuation τ sig (Elt F) := fun c => StableHlo.after hostOps4 (Wo3 m ρ c)
/-- The same read at the TensorCore's references: what region 4's proof data take. -/
abbrev Vi4 : (c : Dev nD) → (b : Ref sig .tc) → Buf (Elt F) ((c : Thread nD τ).loc b) := fun c b => Wi4 m ρ c b
/-- At region 4's exit: its windows' arrays at what the pipeline leaves there (an input's as entered, the output's
    write-backs folded over the grid), every other buffer as entered. -/
def Wo4 (c : Dev nD) : Valuation τ sig (Elt F) :=
  Pipeline.withArrays spec4 c (Wi4 m ρ c) fun w => (dat4 (Vi4 m ρ) c).arrAt w cfg4.N
theorem Wo4_arr (c : Dev nD) (w : Fin cfg4.W) :
    Wo4 m ρ c (Proc.devRef .tc (Pipeline.arrRef spec4 w)) = (dat4 (Vi4 m ρ) c).arrAt w cfg4.N := by
  unfold Wo4; exact Pipeline.withArrays_arr spec4 launch4.win.arr_inj c _ _ w
theorem Wo4_of_ne (c : Dev nD) (b : Ref sig .tc) (hb : ∀ w, Pipeline.arrRef spec4 w ≠ b) :
    Wo4 m ρ c (Proc.devRef .tc b) = Wi4 m ρ c (Proc.devRef .tc b) := by
  unfold Wo4; exact Pipeline.withArrays_of_ne spec4 c _ _ b hb
/-- The same read at the TensorCore's references. -/
abbrev Vo4 : (c : Dev nD) → (b : Ref sig .tc) → Buf (Elt F) ((c : Thread nD τ).loc b) := fun c b => Wo4 m ρ c b
theorem hF4 (c : Dev nD) (w : Fin cfg4.W) : (dat4 (Vi4 m ρ) c).arrAt w cfg4.N = Vo4 m ρ c (Pipeline.arrRef spec4 w) :=
  (Wo4_arr m ρ c w).symm
theorem hrest4 (c : Dev nD) : ∀ b, b ∉ Finset.univ.image (Pipeline.arrRef spec4) → Vo4 m ρ c b = Vi4 m ρ c b :=
  fun b hb => Wo4_of_ne m ρ c b fun w e => hb (Finset.mem_image.mpr ⟨w, Finset.mem_univ _, e⟩)

/-! ## A buffer an item does not write keeps its contents -/

theorem Wi0_keep (c : Dev nD) (r : Ref sig .tc) (h : r ∉ hostOps0_W) : Wi0 m ρ c r = W0 m ρ c r :=
  StableHlo.after_of_writes_sub hostOps0 _ hostOps0_writes h
theorem Wi1_keep (c : Dev nD) (r : Ref sig .tc) (h : r ∉ hostOps1_W) : Wi1 m ρ c r = Wo0 m ρ c r :=
  StableHlo.after_of_writes_sub hostOps1 _ hostOps1_writes h
theorem Wi3_keep (c : Dev nD) (r : Ref sig .tc) (h : r ∉ hostOps3_W) : Wi3 m ρ c r = Wo2 m ρ c r :=
  StableHlo.after_of_writes_sub hostOps3 _ hostOps3_writes h
theorem Wi4_keep (c : Dev nD) (r : Ref sig .tc) (h : r ∉ hostOps4_W) : Wi4 m ρ c r = Wo3 m ρ c r :=
  StableHlo.after_of_writes_sub hostOps4 _ hostOps4_writes h

/-! ## The proof data family and the thread state -/

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (Vi0 m ρ) c
  | ⟨1, _⟩ => fun c => dat1 (Vi1 m ρ) c
  | ⟨2, _⟩ => fun c => dat2 (Vi2 m ρ) c
  | ⟨3, _⟩ => fun c => dat3 (Vi3 m ρ) c
  | ⟨4, _⟩ => fun c => dat4 (Vi4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues,
    at nothing. -/
abbrev R (c : Dev nD) : sProp 𝕄 := iprop((∃ r, prngReg c r) ∗ ∃ W, owes (c : Thread nD τ) (0 : CellTallies nD τ sig Unit) W)
/-- A stretch of host operations as a segment, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (Wo4 m ρ c) ∗ ∃ r, prngReg c r)

end Cert.KernelIdeal.Frame

end
-- ==== Proof.KI.Seg0.lean ====
/-
  Region 0 of the idealized kernel's @main as one item of the run: entered with every unscoped buffer of the core at
  the contents `Wi0`, left with them at `Wo0`. Its windows' arrays are split out of the unscoped buffers at the
  entry and put back, at what the pipeline leaves, at the exit; the generator register passes through the region's
  invariant untouched; the kernel signals no one, so nothing is owed and it has no semaphore of its own.
-/
import proofs.«107001_j26216480375292_1_alg».proof.Proof.KI.Fold

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vi0 m ρ) c).loose
  hwaits := Pipeline.hwaits_of_owed_zero _ _ _ _ L lv 0 fun _ _ => rfl
  pre c := iprop(StableHlo.held (c : Thread nD τ) (Pipeline.ucRefs τ sig) (Wi0 m ρ c) ∗ R c)
  post c := iprop(StableHlo.held (c : Thread nD τ) (Pipeline.ucRefs τ sig) (Wo0 m ρ c) ∗ R c)
  X c := iprop(∃ r, prngReg c r)
  Y c := iprop(∃ r, prngReg c r)
  Z c := Pipeline.unscopedRest (Ix := Unit) (Name := ℕ) (U := UR sig nD τ) (Lvl := ℕ) spec0 c (Vi0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vi0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vi0 m ρ c) (Vo0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frame

end
-- ==== Proof.KI.Seg1.lean ====
/-
  Region 1 of the idealized kernel's @main as one item of the run: entered with every unscoped buffer of the core at
  the contents `Wi1`, left with them at `Wo1`. Its windows' arrays are split out of the unscoped buffers at the
  entry and put back, at what the pipeline leaves, at the exit; the generator register passes through the region's
  invariant untouched; the kernel signals no one, so nothing is owed and it has no semaphore of its own.
-/
import proofs.«107001_j26216480375292_1_alg».proof.Proof.KI.Fold

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vi1 m ρ) c).loose
  hwaits := Pipeline.hwaits_of_owed_zero _ _ _ _ L lv 1 fun _ _ => rfl
  pre c := iprop(StableHlo.held (c : Thread nD τ) (Pipeline.ucRefs τ sig) (Wi1 m ρ c) ∗ R c)
  post c := iprop(StableHlo.held (c : Thread nD τ) (Pipeline.ucRefs τ sig) (Wo1 m ρ c) ∗ R c)
  X c := iprop(∃ r, prngReg c r)
  Y c := iprop(∃ r, prngReg c r)
  Z c := Pipeline.unscopedRest (Ix := Unit) (Name := ℕ) (U := UR sig nD τ) (Lvl := ℕ) spec1 c (Vi1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vi1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vi1 m ρ c) (Vo1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frame

end
-- ==== Proof.KI.Seg2.lean ====
/-
  Region 2 of the idealized kernel's @main as one item of the run: entered with every unscoped buffer of the core at
  the contents `Wi2`, left with them at `Wo2`. Its windows' arrays are split out of the unscoped buffers at the
  entry and put back, at what the pipeline leaves, at the exit; the generator register passes through the region's
  invariant untouched; the kernel signals no one, so nothing is owed and it has no semaphore of its own.
-/
import proofs.«107001_j26216480375292_1_alg».proof.Proof.KI.Fold

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vi2 m ρ) c).loose
  hwaits := Pipeline.hwaits_of_owed_zero _ _ _ _ L lv 2 fun _ _ => rfl
  pre c := iprop(StableHlo.held (c : Thread nD τ) (Pipeline.ucRefs τ sig) (Wi2 m ρ c) ∗ R c)
  post c := iprop(StableHlo.held (c : Thread nD τ) (Pipeline.ucRefs τ sig) (Wo2 m ρ c) ∗ R c)
  X c := iprop(∃ r, prngReg c r)
  Y c := iprop(∃ r, prngReg c r)
  Z c := Pipeline.unscopedRest (Ix := Unit) (Name := ℕ) (U := UR sig nD τ) (Lvl := ℕ) spec2 c (Vi2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vi2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vi2 m ρ c) (Vo2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frame

end
-- ==== Proof.KI.Seg3.lean ====
/-
  Region 3 of the idealized kernel's @main as one item of the run: entered with every unscoped buffer of the core at
  the contents `Wi3`, left with them at `Wo3`. Its windows' arrays are split out of the unscoped buffers at the
  entry and put back, at what the pipeline leaves, at the exit; the generator register passes through the region's
  invariant untouched; the kernel signals no one, so nothing is owed and it has no semaphore of its own.
-/
import proofs.«107001_j26216480375292_1_alg».proof.Proof.KI.Fold

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vi3 m ρ) c).loose
  hwaits := Pipeline.hwaits_of_owed_zero _ _ _ _ L lv 3 fun _ _ => rfl
  pre c := iprop(StableHlo.held (c : Thread nD τ) (Pipeline.ucRefs τ sig) (Wi3 m ρ c) ∗ R c)
  post c := iprop(StableHlo.held (c : Thread nD τ) (Pipeline.ucRefs τ sig) (Wo3 m ρ c) ∗ R c)
  X c := iprop(∃ r, prngReg c r)
  Y c := iprop(∃ r, prngReg c r)
  Z c := Pipeline.unscopedRest (Ix := Unit) (Name := ℕ) (U := UR sig nD τ) (Lvl := ℕ) spec3 c (Vi3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vi3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vi3 m ρ c) (Vo3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frame

end
-- ==== Proof.KI.Seg4.lean ====
/-
  Region 4 of the idealized kernel's @main as one item of the run: entered with every unscoped buffer of the core at
  the contents `Wi4`, left with them at `Wo4`. Its windows' arrays are split out of the unscoped buffers at the
  entry and put back, at what the pipeline leaves, at the exit; the generator register passes through the region's
  invariant untouched; the kernel signals no one, so nothing is owed and it has no semaphore of its own.
-/
import proofs.«107001_j26216480375292_1_alg».proof.Proof.KI.Fold

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vi4 m ρ) c).loose
  hwaits := Pipeline.hwaits_of_owed_zero _ _ _ _ L lv 4 fun _ _ => rfl
  pre c := iprop(StableHlo.held (c : Thread nD τ) (Pipeline.ucRefs τ sig) (Wi4 m ρ c) ∗ R c)
  post c := iprop(StableHlo.held (c : Thread nD τ) (Pipeline.ucRefs τ sig) (Wo4 m ρ c) ∗ R c)
  X c := iprop(∃ r, prngReg c r)
  Y c := iprop(∃ r, prngReg c r)
  Z c := Pipeline.unscopedRest (Ix := Unit) (Name := ℕ) (U := UR sig nD τ) (Lvl := ℕ) spec4 c (Vi4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vi4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vi4 m ρ c) (Vo4 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frame

end
-- ==== Proof.KI.Launch.lean ====
/-
  The run of the idealized kernel's @main, item by item: four stretches of host operations and five pallas_calls, each
  entered with the core's unscoped buffers at the contents the item before left. Every weakly fair execution
  terminates, nothing faults, and at the end every unscoped buffer of the core holds the last boundary's contents
  `Wo4` — the arguments and the result among them.
-/
import proofs.«107001_j26216480375292_1_alg».proof.Proof.KI.Seg0
import proofs.«107001_j26216480375292_1_alg».proof.Proof.KI.Seg1
import proofs.«107001_j26216480375292_1_alg».proof.Proof.KI.Seg2
import proofs.«107001_j26216480375292_1_alg».proof.Proof.KI.Seg3
import proofs.«107001_j26216480375292_1_alg».proof.Proof.KI.Seg4

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's nine items in order. -/
abbrev ksegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (Wo0 m ρ)),
    .region (reg1 m ρ),
    .region (reg2 m ρ),
    .host (hseg hostOps3 hostOps3_sub hostOps3_fresh (Wo2 m ρ)),
    .region (reg3 m ρ),
    .host (hseg hostOps4 hostOps4_sub hostOps4_fresh (Wo3 m ρ)),
    .region (reg4 m ρ) ]

/-- @main is the run of those items. -/
theorem main_run (c : Dev nD) : main (F := F) c = Pipeline.Seg.run (ksegs m ρ) := (main_chain c).trans (by chain_rfl)

set_option backward.isDefEq.respectTransparency.types false in
/-- From any memory with zero counters every weakly fair execution of @main terminates without a fault, and in
    the final state every unscoped buffer of every core holds the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wo4 m ρ c b) :=
  Pipeline.θ_run_regions_kit (pcfgs (F := F)) adm (pdats m ρ) () cellOf_inj emb₁ defs₀ 𝒱₀ L lv m ρ main (ksegs m ρ)
    (fun c Q => by rw [main_run m ρ c])
    (by simp only [ksegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (Wo4 m ρ c) ∗ R c) ⊢ _
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wo4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wo4 m ρ c) s')
      isplitl [Hh] <;> iassumption)
    (hQ := fun s h c => h c)

end Cert.KernelIdeal.Frame

end
-- ==== Proof.KI.Keep.lean ====
/-
  The five argument arrays hold their launch contents at every boundary of the idealized kernel's @main: no stretch
  of host operations writes one, and a pallas_call either does not touch one or only reads it (the features, through
  the first call's input window, whose array the pipeline leaves as entered).
-/
import proofs.«107001_j26216480375292_1_alg».proof.Proof.KI.Fold

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem Wi0_main_arg0 (c : Dev nD) : Wi0 m ρ c (Proc.devRef .tc main_arg0) = m ((c : Thread nD τ).loc main_arg0) :=
  (Wi0_keep m ρ c main_arg0 (by decide)).trans rfl
theorem Wo0_main_arg0 (c : Dev nD) : Wo0 m ρ c (Proc.devRef .tc main_arg0) = m ((c : Thread nD τ).loc main_arg0) :=
  (Wo0_arr m ρ c 0).trans ((((dat0 (Vi0 m ρ) c).arrAt_in 0 rfl _).trans (A_eq0 (Vi0 m ρ) c 0)).trans (Wi0_main_arg0 m ρ c))
theorem Wi1_main_arg0 (c : Dev nD) : Wi1 m ρ c (Proc.devRef .tc main_arg0) = m ((c : Thread nD τ).loc main_arg0) :=
  (Wi1_keep m ρ c main_arg0 (by decide)).trans (Wo0_main_arg0 m ρ c)
theorem Wo1_main_arg0 (c : Dev nD) : Wo1 m ρ c (Proc.devRef .tc main_arg0) = m ((c : Thread nD τ).loc main_arg0) :=
  (Wo1_of_ne m ρ c main_arg0 (by decide)).trans (Wi1_main_arg0 m ρ c)
theorem Wo2_main_arg0 (c : Dev nD) : Wo2 m ρ c (Proc.devRef .tc main_arg0) = m ((c : Thread nD τ).loc main_arg0) :=
  (Wo2_of_ne m ρ c main_arg0 (by decide)).trans (Wo1_main_arg0 m ρ c)
theorem Wi3_main_arg0 (c : Dev nD) : Wi3 m ρ c (Proc.devRef .tc main_arg0) = m ((c : Thread nD τ).loc main_arg0) :=
  (Wi3_keep m ρ c main_arg0 (by decide)).trans (Wo2_main_arg0 m ρ c)
theorem Wo3_main_arg0 (c : Dev nD) : Wo3 m ρ c (Proc.devRef .tc main_arg0) = m ((c : Thread nD τ).loc main_arg0) :=
  (Wo3_of_ne m ρ c main_arg0 (by decide)).trans (Wi3_main_arg0 m ρ c)
theorem Wi4_main_arg0 (c : Dev nD) : Wi4 m ρ c (Proc.devRef .tc main_arg0) = m ((c : Thread nD τ).loc main_arg0) :=
  (Wi4_keep m ρ c main_arg0 (by decide)).trans (Wo3_main_arg0 m ρ c)
theorem Wo4_main_arg0 (c : Dev nD) : Wo4 m ρ c (Proc.devRef .tc main_arg0) = m ((c : Thread nD τ).loc main_arg0) :=
  (Wo4_of_ne m ρ c main_arg0 (by decide)).trans (Wi4_main_arg0 m ρ c)

theorem Wi0_main_arg1 (c : Dev nD) : Wi0 m ρ c (Proc.devRef .tc main_arg1) = m ((c : Thread nD τ).loc main_arg1) :=
  (Wi0_keep m ρ c main_arg1 (by decide)).trans rfl
theorem Wo0_main_arg1 (c : Dev nD) : Wo0 m ρ c (Proc.devRef .tc main_arg1) = m ((c : Thread nD τ).loc main_arg1) :=
  (Wo0_of_ne m ρ c main_arg1 (by decide)).trans (Wi0_main_arg1 m ρ c)
theorem Wi1_main_arg1 (c : Dev nD) : Wi1 m ρ c (Proc.devRef .tc main_arg1) = m ((c : Thread nD τ).loc main_arg1) :=
  (Wi1_keep m ρ c main_arg1 (by decide)).trans (Wo0_main_arg1 m ρ c)
theorem Wo1_main_arg1 (c : Dev nD) : Wo1 m ρ c (Proc.devRef .tc main_arg1) = m ((c : Thread nD τ).loc main_arg1) :=
  (Wo1_of_ne m ρ c main_arg1 (by decide)).trans (Wi1_main_arg1 m ρ c)
theorem Wo2_main_arg1 (c : Dev nD) : Wo2 m ρ c (Proc.devRef .tc main_arg1) = m ((c : Thread nD τ).loc main_arg1) :=
  (Wo2_of_ne m ρ c main_arg1 (by decide)).trans (Wo1_main_arg1 m ρ c)
theorem Wi3_main_arg1 (c : Dev nD) : Wi3 m ρ c (Proc.devRef .tc main_arg1) = m ((c : Thread nD τ).loc main_arg1) :=
  (Wi3_keep m ρ c main_arg1 (by decide)).trans (Wo2_main_arg1 m ρ c)
theorem Wo3_main_arg1 (c : Dev nD) : Wo3 m ρ c (Proc.devRef .tc main_arg1) = m ((c : Thread nD τ).loc main_arg1) :=
  (Wo3_of_ne m ρ c main_arg1 (by decide)).trans (Wi3_main_arg1 m ρ c)
theorem Wi4_main_arg1 (c : Dev nD) : Wi4 m ρ c (Proc.devRef .tc main_arg1) = m ((c : Thread nD τ).loc main_arg1) :=
  (Wi4_keep m ρ c main_arg1 (by decide)).trans (Wo3_main_arg1 m ρ c)
theorem Wo4_main_arg1 (c : Dev nD) : Wo4 m ρ c (Proc.devRef .tc main_arg1) = m ((c : Thread nD τ).loc main_arg1) :=
  (Wo4_of_ne m ρ c main_arg1 (by decide)).trans (Wi4_main_arg1 m ρ c)

theorem Wi0_main_arg2 (c : Dev nD) : Wi0 m ρ c (Proc.devRef .tc main_arg2) = m ((c : Thread nD τ).loc main_arg2) :=
  (Wi0_keep m ρ c main_arg2 (by decide)).trans rfl
theorem Wo0_main_arg2 (c : Dev nD) : Wo0 m ρ c (Proc.devRef .tc main_arg2) = m ((c : Thread nD τ).loc main_arg2) :=
  (Wo0_of_ne m ρ c main_arg2 (by decide)).trans (Wi0_main_arg2 m ρ c)
theorem Wi1_main_arg2 (c : Dev nD) : Wi1 m ρ c (Proc.devRef .tc main_arg2) = m ((c : Thread nD τ).loc main_arg2) :=
  (Wi1_keep m ρ c main_arg2 (by decide)).trans (Wo0_main_arg2 m ρ c)
theorem Wo1_main_arg2 (c : Dev nD) : Wo1 m ρ c (Proc.devRef .tc main_arg2) = m ((c : Thread nD τ).loc main_arg2) :=
  (Wo1_of_ne m ρ c main_arg2 (by decide)).trans (Wi1_main_arg2 m ρ c)
theorem Wo2_main_arg2 (c : Dev nD) : Wo2 m ρ c (Proc.devRef .tc main_arg2) = m ((c : Thread nD τ).loc main_arg2) :=
  (Wo2_of_ne m ρ c main_arg2 (by decide)).trans (Wo1_main_arg2 m ρ c)
theorem Wi3_main_arg2 (c : Dev nD) : Wi3 m ρ c (Proc.devRef .tc main_arg2) = m ((c : Thread nD τ).loc main_arg2) :=
  (Wi3_keep m ρ c main_arg2 (by decide)).trans (Wo2_main_arg2 m ρ c)
theorem Wo3_main_arg2 (c : Dev nD) : Wo3 m ρ c (Proc.devRef .tc main_arg2) = m ((c : Thread nD τ).loc main_arg2) :=
  (Wo3_of_ne m ρ c main_arg2 (by decide)).trans (Wi3_main_arg2 m ρ c)
theorem Wi4_main_arg2 (c : Dev nD) : Wi4 m ρ c (Proc.devRef .tc main_arg2) = m ((c : Thread nD τ).loc main_arg2) :=
  (Wi4_keep m ρ c main_arg2 (by decide)).trans (Wo3_main_arg2 m ρ c)
theorem Wo4_main_arg2 (c : Dev nD) : Wo4 m ρ c (Proc.devRef .tc main_arg2) = m ((c : Thread nD τ).loc main_arg2) :=
  (Wo4_of_ne m ρ c main_arg2 (by decide)).trans (Wi4_main_arg2 m ρ c)

theorem Wi0_main_arg3 (c : Dev nD) : Wi0 m ρ c (Proc.devRef .tc main_arg3) = m ((c : Thread nD τ).loc main_arg3) :=
  (Wi0_keep m ρ c main_arg3 (by decide)).trans rfl
theorem Wo0_main_arg3 (c : Dev nD) : Wo0 m ρ c (Proc.devRef .tc main_arg3) = m ((c : Thread nD τ).loc main_arg3) :=
  (Wo0_of_ne m ρ c main_arg3 (by decide)).trans (Wi0_main_arg3 m ρ c)
theorem Wi1_main_arg3 (c : Dev nD) : Wi1 m ρ c (Proc.devRef .tc main_arg3) = m ((c : Thread nD τ).loc main_arg3) :=
  (Wi1_keep m ρ c main_arg3 (by decide)).trans (Wo0_main_arg3 m ρ c)
theorem Wo1_main_arg3 (c : Dev nD) : Wo1 m ρ c (Proc.devRef .tc main_arg3) = m ((c : Thread nD τ).loc main_arg3) :=
  (Wo1_of_ne m ρ c main_arg3 (by decide)).trans (Wi1_main_arg3 m ρ c)
theorem Wo2_main_arg3 (c : Dev nD) : Wo2 m ρ c (Proc.devRef .tc main_arg3) = m ((c : Thread nD τ).loc main_arg3) :=
  (Wo2_of_ne m ρ c main_arg3 (by decide)).trans (Wo1_main_arg3 m ρ c)
theorem Wi3_main_arg3 (c : Dev nD) : Wi3 m ρ c (Proc.devRef .tc main_arg3) = m ((c : Thread nD τ).loc main_arg3) :=
  (Wi3_keep m ρ c main_arg3 (by decide)).trans (Wo2_main_arg3 m ρ c)
theorem Wo3_main_arg3 (c : Dev nD) : Wo3 m ρ c (Proc.devRef .tc main_arg3) = m ((c : Thread nD τ).loc main_arg3) :=
  (Wo3_of_ne m ρ c main_arg3 (by decide)).trans (Wi3_main_arg3 m ρ c)
theorem Wi4_main_arg3 (c : Dev nD) : Wi4 m ρ c (Proc.devRef .tc main_arg3) = m ((c : Thread nD τ).loc main_arg3) :=
  (Wi4_keep m ρ c main_arg3 (by decide)).trans (Wo3_main_arg3 m ρ c)
theorem Wo4_main_arg3 (c : Dev nD) : Wo4 m ρ c (Proc.devRef .tc main_arg3) = m ((c : Thread nD τ).loc main_arg3) :=
  (Wo4_of_ne m ρ c main_arg3 (by decide)).trans (Wi4_main_arg3 m ρ c)

theorem Wi0_main_arg4 (c : Dev nD) : Wi0 m ρ c (Proc.devRef .tc main_arg4) = m ((c : Thread nD τ).loc main_arg4) :=
  (Wi0_keep m ρ c main_arg4 (by decide)).trans rfl
theorem Wo0_main_arg4 (c : Dev nD) : Wo0 m ρ c (Proc.devRef .tc main_arg4) = m ((c : Thread nD τ).loc main_arg4) :=
  (Wo0_of_ne m ρ c main_arg4 (by decide)).trans (Wi0_main_arg4 m ρ c)
theorem Wi1_main_arg4 (c : Dev nD) : Wi1 m ρ c (Proc.devRef .tc main_arg4) = m ((c : Thread nD τ).loc main_arg4) :=
  (Wi1_keep m ρ c main_arg4 (by decide)).trans (Wo0_main_arg4 m ρ c)
theorem Wo1_main_arg4 (c : Dev nD) : Wo1 m ρ c (Proc.devRef .tc main_arg4) = m ((c : Thread nD τ).loc main_arg4) :=
  (Wo1_of_ne m ρ c main_arg4 (by decide)).trans (Wi1_main_arg4 m ρ c)
theorem Wo2_main_arg4 (c : Dev nD) : Wo2 m ρ c (Proc.devRef .tc main_arg4) = m ((c : Thread nD τ).loc main_arg4) :=
  (Wo2_of_ne m ρ c main_arg4 (by decide)).trans (Wo1_main_arg4 m ρ c)
theorem Wi3_main_arg4 (c : Dev nD) : Wi3 m ρ c (Proc.devRef .tc main_arg4) = m ((c : Thread nD τ).loc main_arg4) :=
  (Wi3_keep m ρ c main_arg4 (by decide)).trans (Wo2_main_arg4 m ρ c)
theorem Wo3_main_arg4 (c : Dev nD) : Wo3 m ρ c (Proc.devRef .tc main_arg4) = m ((c : Thread nD τ).loc main_arg4) :=
  (Wo3_of_ne m ρ c main_arg4 (by decide)).trans (Wi3_main_arg4 m ρ c)
theorem Wi4_main_arg4 (c : Dev nD) : Wi4 m ρ c (Proc.devRef .tc main_arg4) = m ((c : Thread nD τ).loc main_arg4) :=
  (Wi4_keep m ρ c main_arg4 (by decide)).trans (Wo3_main_arg4 m ρ c)
theorem Wo4_main_arg4 (c : Dev nD) : Wo4 m ρ c (Proc.devRef .tc main_arg4) = m ((c : Thread nD τ).loc main_arg4) :=
  (Wo4_of_ne m ρ c main_arg4 (by decide)).trans (Wi4_main_arg4 m ρ c)

end Cert.KernelIdeal.Frame

end
-- ==== Proof.KI.Args.lean ====
/-
  The frame of the idealized kernel's @main: every weakly fair execution terminates without a fault, and each of the
  five argument arrays ends holding what it held at launch — the run's last contents read at the arguments.
-/
import proofs.«107001_j26216480375292_1_alg».proof.Proof.KI.Launch
import proofs.«107001_j26216480375292_1_alg».proof.Proof.KI.Keep

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (Wo4_main_arg0 m ρ c),
     (h c _ (mem_uc main_arg1 (by decide))).trans (Wo4_main_arg1 m ρ c),
     (h c _ (mem_uc main_arg2 (by decide))).trans (Wo4_main_arg2 m ρ c),
     (h c _ (mem_uc main_arg3 (by decide))).trans (Wo4_main_arg3 m ρ c),
     (h c _ (mem_uc main_arg4 (by decide))).trans (Wo4_main_arg4 m ρ c)⟩) (run_all m ρ)

end Cert.KernelIdeal.Frame

end
-- ==== Proof.Val.Spec.lean ====
/-
  What the program computes, as whole-array functions over the extended reals.

  Notation: `x` the node features (100000 rows of 128), `src`, `dst` the edge lists (1600000 node numbers each),
  `W` the 128×384 weight matrix, `b` the bias. With `deg[v]` the number of edges into `v` and `n = deg^(-1/2)`
  as a column, one hop takes `h` to `n ⊙ (A (n ⊙ h))`: scale every row by its factor, for each edge add the
  source's row into the destination's row, scale the rows again. The result is `[x | hop x | hop (hop x)] · Wᵀ + b`.

  Here the row scaling (`rowScale`) and the projection (`project`) are stated index by index; the degree count,
  the negative power, the gather of source rows and the scatter-add into destination rows are the host's own
  operations, carried as they are printed (both programs apply the very same ones).
-/
import proofs.«107001_j26216480375292_1_alg».proof.Proof.Gen.KernelIdeal
import Idealize.ShloMosaic.Lib.ValueIdx

noncomputable section

open scoped BigOperators

namespace Cert.KernelIdeal.Spec

open Cert.KernelIdeal Cert.KernelIdeal.Facts₀
open Idealize.ShloMosaic Idealize.ShloMosaic.ValueIdx

/-- Row `i` of `x` times the `i`-th per-row factor: entry `(i, j)` is `x[i, j] · n[i, 0]`. -/
def rowScale (x : FVec Ideal S100000x128 .f32) (n : FVec Ideal S100000x1 .f32) : FVec Ideal S100000x128 .f32 :=
  fun j => x j * n (ix2 (j 0) (0 : Fin 1))

/-- The projection: entry `(i, j)` is `∑ₖ x[i, k] · w[k, j] + b[0, j]`, the sum over the 384 stacked features. -/
def project (x : FVec Ideal S100000x384 .f32) (w : FVec Ideal S384x128 .f32) (b : FVec Ideal S1x128 .f32) :
    FVec Ideal S100000x128 .f32 :=
  fun j => (∑ k : Fin 384, x (ix2 (j 0) k) * w (ix2 k (j 1))) + b (ix2 (0 : Fin 1) (j 1))

/-- The per-row factors: the in-degree of every node (ones added at the edges' destinations) to the power −1/2,
    as a column. -/
def norm (dst : IVec S1600000 32) : FVec Ideal S100000x1 .f32 :=
  broadcastInDim S100000x1 ![0] bcast_S100000_S100000x1_0
    (Host.powf
      (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 dst)
        (broadcastInDim S1600000 ![] bcast_S_S1600000 (constant (F := Ideal) S_ .f32 0x3F800000#32)))
      (broadcastInDim S100000 ![] bcast_S_S100000 (constant (F := Ideal) S_ .f32 0xBF000000#32)))

/-- The source node numbers as start indices: a negative number counts from the end. -/
def srcIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- One aggregation: for every edge, the source's row of `h` added into the destination's row of a zero array. -/
def aggregate (h : FVec Ideal S100000x128 .f32) (src dst : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h (srcIdx src))

/-- The three feature blocks side by side, 384 columns. -/
def stack (a b c : FVec Ideal S100000x128 .f32) : FVec Ideal S100000x384 .f32 :=
  concatenate S100000x384 1 [⟨S100000x128, a⟩, ⟨S100000x128, b⟩, ⟨S100000x128, c⟩]
    concatenates_S100000x128_S100000x128_S100000x128_S100000x384_d1

/-- The first hop's output: scaled, aggregated, scaled again. -/
def hop1 (x : FVec Ideal S100000x128 .f32) (src dst : IVec S1600000 32) : FVec Ideal S100000x128 .f32 :=
  rowScale (aggregate (rowScale x (norm dst)) src dst) (norm dst)

/-- The second hop's output, from the first's. -/
def hop2 (x : FVec Ideal S100000x128 .f32) (src dst : IVec S1600000 32) : FVec Ideal S100000x128 .f32 :=
  rowScale (aggregate (rowScale (hop1 x src dst) (norm dst)) src dst) (norm dst)

/-- The whole result. -/
def result (x : FVec Ideal S100000x128 .f32) (src dst : IVec S1600000 32) (W : FVec Ideal S128x384 .f32) (b : FVec Ideal S128 .f32) :
    FVec Ideal S100000x128 .f32 :=
  project (stack x (hop1 x src dst) (hop2 x src dst))
    (transpose S384x128 [1, 0] W transposes_S128x384_S384x128_1_0)
    (shapeCast S1x128 b shapeCasts_S128_S1x128)

end Cert.KernelIdeal.Spec

end
-- ==== Proof.Val.Hosts.lean ====
/-
  What the stretches of host operations of the idealized kernel's @main leave, at the ideal instance, read through
  the fold of the buffers' contents.

  The first stretch computes the per-row factors (the in-degree to the power −1/2, as a column) from the destination
  list alone; every later item finds that column unchanged, since no host operation writes it again and each
  row-scaling call only reads it through an input window. The stretches between the calls gather the source rows of
  what the call before left and scatter-add them into the destination rows; the last stretch stacks the features
  with the two hops' outputs, transposes the weights and reshapes the bias.
-/
import proofs.«107001_j26216480375292_1_alg».proof.Proof.KI.Keep
import proofs.«107001_j26216480375292_1_alg».proof.Proof.Val.Spec
import Idealize.ShloMosaic.Lib.StableHlo.Run

set_option maxRecDepth 16384

noncomputable section

namespace Cert.KernelIdeal.Value

open Cert.KernelIdeal Cert.KernelIdeal.Gen Cert.KernelIdeal.Frame
open Idealize.ShloMosaic Idealize.ShloMosaic.TcCoe Idealize.ShloMosaic.StableHlo
open Idealize.SL.Sem
open Idealize.ShloMosaic.Pipeline (Dat)

variable (m : (ℓ : Loc nD τ sig) → Buf (Elt Ideal) ℓ) (ρ : Dev nD → PrngReg)

/-- The argument arrays on core `c`: features, source list, destination list, weights, bias. -/
abbrev ax (c : Dev nD) := m ((c : Thread nD τ).loc main_arg0)
abbrev asrc (c : Dev nD) := m ((c : Thread nD τ).loc main_arg1)
abbrev adst (c : Dev nD) := m ((c : Thread nD τ).loc main_arg2)
abbrev aW (c : Dev nD) := m ((c : Thread nD τ).loc main_arg3)
abbrev ab (c : Dev nD) := m ((c : Thread nD τ).loc main_arg4)

/-! ## The per-row factors, at every boundary where an item reads them -/

theorem Wi0_norm (c : Dev nD) : Wi0 m ρ c (Proc.devRef .tc main_v6) = Spec.norm (adst m c) := by
  show StableHlo.after hostOps0 (W0 m ρ c) (Proc.devRef .tc main_v6) = _
  after_results
  rfl

theorem Wo0_norm (c : Dev nD) : Wo0 m ρ c (Proc.devRef .tc main_v6) = Spec.norm (adst m c) :=
  (Wo0_arr m ρ c 1).trans ((((dat0 (Vi0 m ρ) c).arrAt_in 1 rfl _).trans (A_eq0 (Vi0 m ρ) c 1)).trans (Wi0_norm m ρ c))

theorem Wi1_norm (c : Dev nD) : Wi1 m ρ c (Proc.devRef .tc main_v6) = Spec.norm (adst m c) :=
  (Wi1_keep m ρ c main_v6 (by decide)).trans (Wo0_norm m ρ c)

theorem Wo1_norm (c : Dev nD) : Wo1 m ρ c (Proc.devRef .tc main_v6) = Spec.norm (adst m c) :=
  (Wo1_arr m ρ c 1).trans ((((dat1 (Vi1 m ρ) c).arrAt_in 1 rfl _).trans (A_eq1 (Vi1 m ρ) c 1)).trans (Wi1_norm m ρ c))

theorem Wo2_norm (c : Dev nD) : Wo2 m ρ c (Proc.devRef .tc main_v6) = Spec.norm (adst m c) :=
  (Wo2_arr m ρ c 1).trans ((((dat2 (Vi2 m ρ) c).arrAt_in 1 rfl _).trans (A_eq2 (Vi2 m ρ) c 1)).trans (Wo1_norm m ρ c))

theorem Wi3_norm (c : Dev nD) : Wi3 m ρ c (Proc.devRef .tc main_v6) = Spec.norm (adst m c) :=
  (Wi3_keep m ρ c main_v6 (by decide)).trans (Wo2_norm m ρ c)

/-! ## The aggregations between the row-scaling calls -/

theorem Wi1_agg (c : Dev nD) :
    Wi1 m ρ c (Proc.devRef .tc main_v17) = Spec.aggregate (Wo0 m ρ c (Proc.devRef .tc main_v7)) (asrc m c) (adst m c) := by
  show StableHlo.after hostOps1 (Wo0 m ρ c) (Proc.devRef .tc main_v17) = _
  after_results
  rw [Wo0_main_arg1, Wo0_main_arg2]
  rfl

theorem Wi3_agg (c : Dev nD) :
    Wi3 m ρ c (Proc.devRef .tc main_v29) = Spec.aggregate (Wo2 m ρ c (Proc.devRef .tc main_v19)) (asrc m c) (adst m c) := by
  show StableHlo.after hostOps3 (Wo2 m ρ c) (Proc.devRef .tc main_v29) = _
  after_results
  rw [Wo2_main_arg1, Wo2_main_arg2]
  rfl

/-! ## The first hop's output is still in place when the last stretch reads it -/

theorem Wo3_hop1 (c : Dev nD) : Wo3 m ρ c (Proc.devRef .tc main_v18) = Wo1 m ρ c (Proc.devRef .tc main_v18) :=
  (Wo3_of_ne m ρ c main_v18 (by decide)).trans <| (Wi3_keep m ρ c main_v18 (by decide)).trans <|
    (Wo2_arr m ρ c 0).trans (((dat2 (Vi2 m ρ) c).arrAt_in 0 rfl _).trans (A_eq2 (Vi2 m ρ) c 0))

/-! ## The last stretch: the projection's three operands -/

theorem Wi4_stack (c : Dev nD) :
    Wi4 m ρ c (Proc.devRef .tc main_v31)
      = Spec.stack (ax m c) (Wo3 m ρ c (Proc.devRef .tc main_v18)) (Wo3 m ρ c (Proc.devRef .tc main_v30)) := by
  show StableHlo.after hostOps4 (Wo3 m ρ c) (Proc.devRef .tc main_v31) = _
  after_results
  show Spec.stack (Wo3 m ρ c (Proc.devRef .tc main_arg0)) (Wo3 m ρ c (Proc.devRef .tc main_v18)) (Wo3 m ρ c (Proc.devRef .tc main_v30)) = _
  rw [Wo3_main_arg0]

theorem Wi4_weights (c : Dev nD) :
    Wi4 m ρ c (Proc.devRef .tc main_v32) = transpose S384x128 [1, 0] (aW m c) Facts₀.transposes_S128x384_S384x128_1_0 := by
  show StableHlo.after hostOps4 (Wo3 m ρ c) (Proc.devRef .tc main_v32) = _
  after_results
  rw [Wo3_main_arg3]

theorem Wi4_bias (c : Dev nD) :
    Wi4 m ρ c (Proc.devRef .tc main_v33) = shapeCast S1x128 (ab m c) Facts₀.shapeCasts_S128_S1x128 := by
  show StableHlo.after hostOps4 (Wo3 m ρ c) (Proc.devRef .tc main_v33) = _
  after_results
  rw [Wo3_main_arg4]
  rfl

end Cert.KernelIdeal.Value

end
-- ==== Proof.Val.Scale0.lean ====
/-
  Region 0's output array after the region: the feature rows scaled.
-/
import proofs.«107001_j26216480375292_1_alg».proof.Proof.KI.Reg0
import proofs.«107001_j26216480375292_1_alg».proof.Proof.Val.Spec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Value

open Cert.KernelIdeal Cert.KernelIdeal.Gen Cert.KernelIdeal.Frame
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The zero offsets of a whole-block rectangle, as the constant function. -/
theorem zero_off0 : (![0, 0] : Fin 2 → Nat) = fun _ => 0 := funext fun a => by fin_cases a <;> rfl

/-- The printed index maps, decided over the grid: at point `t` every window's block index is `(t, 0)`. -/
theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The body's payload at an index: the feature entry times its row's factor. -/
theorem pay0_apply (x0 : FVec Ideal S10000x128 .f32) (x1 : FVec Ideal S10000x1 .f32) (p : Fin 10000) (q : Fin 128) :
    k0_pay1 x0 x1 (ix2 p q) = x0 (ix2 p q) * x1 (ix2 p (0 : Fin 1)) := by
  unfold k0_pay1
  simp only [shapeCast_self]
  rw [mulf_apply]
  congr 1
  refine broadcastTo_apply _ _ _ _ fun a => ?_
  match a with
  | ⟨0, _⟩ => rfl
  | ⟨1, _⟩ => rfl

/-- What point `t` writes back is block `t` of the scaled rows of the two arrays as the region finds them. -/
theorem flushed0_eq (c : Dev nD) (t : Fin cfg0.N) :
    (dat0 (F := Ideal) V c).flushed 2 t
      = ((cfg0.win 2).blk t).view.read (Elt Ideal) (Spec.rowScale (V c main_arg0) (V c main_v6)) := by
  show (cfg0.win 2).cut (grid0.coords t) ((dat0 (F := Ideal) V c).after 2 t) = _
  rw [after0_2]
  unfold out0_2
  rw [View.canon_unit_zero zero_off0]
  simp only [View.ld_unit_zero (S := S10000x128) zero_off0, View.ld_unit_zero (S := S10000x1) zero_off0]
  obtain ⟨e00, e01, e10, e11, e20, e21⟩ := index_facts0 t
  funext j
  obtain ⟨p, q, rfl⟩ : ∃ (p : Fin 10000) (q : Fin 128), j = ix2 p q := ⟨j 0, j 1, eq_ix2 j⟩
  show k0_pay1 (iblk0 V c 0 t) (iblk0 V c 1 t) (ix2 p q)
    = Spec.rowScale (V c main_arg0) (V c main_v6) (((cfg0.win 2).blk t).view.emb (ix2 p q))
  rw [pay0_apply]
  unfold Spec.rowScale
  refine congrArg₂ (· * ·) ?_ ?_
  · -- the feature entry: the input's block sits where the output's does
    show V c main_arg0 (((cfg0.win 0).blk t).view.emb (ix2 p q)) = V c main_arg0 (((cfg0.win 2).blk t).view.emb (ix2 p q))
    refine congrArg (V c main_arg0) (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * q.val = win0_2.index t (1 : Fin 2) * 128 + 1 * q.val; omega
  · -- the row's factor: the column's block starts at the same row, and has the one column
    show V c main_v6 (((cfg0.win 1).blk t).view.emb (ix2 p (0 : Fin 1)))
      = V c main_v6 (ix2 ((((cfg0.win 2).blk t).view.emb (ix2 p q)) 0) (0 : Fin 1))
    refine congrArg (V c main_v6) (funext fun a => Fin.ext ?_)
    match a with
    | ⟨0, _⟩ => show win0_1.index t (0 : Fin 2) * 10000 + 1 * p.val = win0_2.index t (0 : Fin 2) * 10000 + 1 * p.val; omega
    | ⟨1, _⟩ => show win0_1.index t (1 : Fin 2) * 1 + 1 * 0 = 0; omega

/-- An index of the array is in point `t`'s block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole (Pipeline.arrRef spec0 2)).slice (win0_2.rect t)).set ↔ _
  rw [View.set_slice_whole, Rect.mem_set_unit]
  exact Iff.rfl

/-- The output's blocks tile the array: row `r` is in the block of point `r / 10000`, which writes it back. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, e20, e21⟩ := index_facts0 t
  refine ⟨t, flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

/-- After region 0 its output array holds the rows of its first operand scaled by its second, whatever the
    two arrays held when the region was entered. -/
theorem scale0_final (c : Dev nD) :
    (dat0 (F := Ideal) V c).arrAt 2 cfg0.N = Spec.rowScale (V c main_arg0) (V c main_v6) := by
  exact (dat0 (F := Ideal) V c).arrAt_eq_of_cover 2 (Spec.rowScale (V c main_arg0) (V c main_v6))
    (fun t _ => flushed0_eq V c t) cover0

end Cert.KernelIdeal.Value

end
-- ==== Proof.Val.Scale1.lean ====
/-
  Region 1's output array after the region: the feature rows scaled.
-/
import proofs.«107001_j26216480375292_1_alg».proof.Proof.KI.Reg1
import proofs.«107001_j26216480375292_1_alg».proof.Proof.Val.Spec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Value.Region1

open Cert.KernelIdeal Cert.KernelIdeal.Gen Cert.KernelIdeal.Frame
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The zero offsets of a whole-block rectangle, as the constant function. -/
theorem zero_off1 : (![0, 0] : Fin 2 → Nat) = fun _ => 0 := funext fun a => by fin_cases a <;> rfl

/-- The printed index maps, decided over the grid: at point `t` every window's block index is `(t, 0)`. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The body's payload at an index: the feature entry times its row's factor. -/
theorem pay1_apply (x0 : FVec Ideal S10000x128 .f32) (x1 : FVec Ideal S10000x1 .f32) (p : Fin 10000) (q : Fin 128) :
    k1_pay1 x0 x1 (ix2 p q) = x0 (ix2 p q) * x1 (ix2 p (0 : Fin 1)) := by
  unfold k1_pay1
  simp only [shapeCast_self]
  rw [mulf_apply]
  congr 1
  refine broadcastTo_apply _ _ _ _ fun a => ?_
  match a with
  | ⟨0, _⟩ => rfl
  | ⟨1, _⟩ => rfl

/-- What point `t` writes back is block `t` of the scaled rows of the two arrays as the region finds them. -/
theorem flushed1_eq (c : Dev nD) (t : Fin cfg1.N) :
    (dat1 (F := Ideal) V c).flushed 2 t
      = ((cfg1.win 2).blk t).view.read (Elt Ideal) (Spec.rowScale (V c main_v17) (V c main_v6)) := by
  show (cfg1.win 2).cut (grid1.coords t) ((dat1 (F := Ideal) V c).after 2 t) = _
  rw [after1_2]
  unfold out1_2
  rw [View.canon_unit_zero zero_off1]
  simp only [View.ld_unit_zero (S := S10000x128) zero_off1, View.ld_unit_zero (S := S10000x1) zero_off1]
  obtain ⟨e00, e01, e10, e11, e20, e21⟩ := index_facts1 t
  funext j
  obtain ⟨p, q, rfl⟩ : ∃ (p : Fin 10000) (q : Fin 128), j = ix2 p q := ⟨j 0, j 1, eq_ix2 j⟩
  show k1_pay1 (iblk1 V c 0 t) (iblk1 V c 1 t) (ix2 p q)
    = Spec.rowScale (V c main_v17) (V c main_v6) (((cfg1.win 2).blk t).view.emb (ix2 p q))
  rw [pay1_apply]
  unfold Spec.rowScale
  refine congrArg₂ (· * ·) ?_ ?_
  · -- the feature entry: the input's block sits where the output's does
    show V c main_v17 (((cfg1.win 0).blk t).view.emb (ix2 p q)) = V c main_v17 (((cfg1.win 2).blk t).view.emb (ix2 p q))
    refine congrArg (V c main_v17) (funext fun a => Fin.ext ?_)
    match a with
    | ⟨0, _⟩ => show win1_0.index t (0 : Fin 2) * 10000 + 1 * p.val = win1_2.index t (0 : Fin 2) * 10000 + 1 * p.val; omega
    | ⟨1, _⟩ => show win1_0.index t (1 : Fin 2) * 128 + 1 * q.val = win1_2.index t (1 : Fin 2) * 128 + 1 * q.val; omega
  · -- the row's factor: the column's block starts at the same row, and has the one column
    show V c main_v6 (((cfg1.win 1).blk t).view.emb (ix2 p (0 : Fin 1)))
      = V c main_v6 (ix2 ((((cfg1.win 2).blk t).view.emb (ix2 p q)) 0) (0 : Fin 1))
    refine congrArg (V c main_v6) (funext fun a => Fin.ext ?_)
    match a with
    | ⟨0, _⟩ => show win1_1.index t (0 : Fin 2) * 10000 + 1 * p.val = win1_2.index t (0 : Fin 2) * 10000 + 1 * p.val; omega
    | ⟨1, _⟩ => show win1_1.index t (1 : Fin 2) * 1 + 1 * 0 = 0; omega

/-- An index of the array is in point `t`'s block iff each coordinate is in the block's range on its axis. -/
theorem mem_blk1 (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole (Pipeline.arrRef spec1 2)).slice (win1_2.rect t)).set ↔ _
  rw [View.set_slice_whole, Rect.mem_set_unit]
  exact Iff.rfl

/-- The output's blocks tile the array: row `r` is in the block of point `r / 10000`, which writes it back. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨-, -, -, -, e20, e21⟩ := index_facts1 t
  refine ⟨t, flush1_2 t, ?_⟩
  rw [mem_blk1]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 128 ≤ (i 1).val ∧ (i 1).val < win1_2.index t (1 : Fin 2) * 128 + 128
    omega

/-- After region 1 its output array holds the rows of its first operand scaled by its second, whatever the
    two arrays held when the region was entered. -/
theorem scale1_final (c : Dev nD) :
    (dat1 (F := Ideal) V c).arrAt 2 cfg1.N = Spec.rowScale (V c main_v17) (V c main_v6) := by
  exact (dat1 (F := Ideal) V c).arrAt_eq_of_cover 2 (Spec.rowScale (V c main_v17) (V c main_v6))
    (fun t _ => flushed1_eq V c t) cover1

end Cert.KernelIdeal.Value.Region1

end
-- ==== Proof.Val.Scale2.lean ====
/-
  Region 2's output array after the region: the feature rows scaled.
-/
import proofs.«107001_j26216480375292_1_alg».proof.Proof.KI.Reg2
import proofs.«107001_j26216480375292_1_alg».proof.Proof.Val.Spec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Value.Region2

open Cert.KernelIdeal Cert.KernelIdeal.Gen Cert.KernelIdeal.Frame
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The zero offsets of a whole-block rectangle, as the constant function. -/
theorem zero_off2 : (![0, 0] : Fin 2 → Nat) = fun _ => 0 := funext fun a => by fin_cases a <;> rfl

/-- The printed index maps, decided over the grid: at point `t` every window's block index is `(t, 0)`. -/
theorem index_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The body's payload at an index: the feature entry times its row's factor. -/
theorem pay2_apply (x0 : FVec Ideal S10000x128 .f32) (x1 : FVec Ideal S10000x1 .f32) (p : Fin 10000) (q : Fin 128) :
    k2_pay1 x0 x1 (ix2 p q) = x0 (ix2 p q) * x1 (ix2 p (0 : Fin 1)) := by
  unfold k2_pay1
  simp only [shapeCast_self]
  rw [mulf_apply]
  congr 1
  refine broadcastTo_apply _ _ _ _ fun a => ?_
  match a with
  | ⟨0, _⟩ => rfl
  | ⟨1, _⟩ => rfl

/-- What point `t` writes back is block `t` of the scaled rows of the two arrays as the region finds them. -/
theorem flushed2_eq (c : Dev nD) (t : Fin cfg2.N) :
    (dat2 (F := Ideal) V c).flushed 2 t
      = ((cfg2.win 2).blk t).view.read (Elt Ideal) (Spec.rowScale (V c main_v18) (V c main_v6)) := by
  show (cfg2.win 2).cut (grid2.coords t) ((dat2 (F := Ideal) V c).after 2 t) = _
  rw [after2_2]
  unfold out2_2
  rw [View.canon_unit_zero zero_off2]
  simp only [View.ld_unit_zero (S := S10000x128) zero_off2, View.ld_unit_zero (S := S10000x1) zero_off2]
  obtain ⟨e00, e01, e10, e11, e20, e21⟩ := index_facts2 t
  funext j
  obtain ⟨p, q, rfl⟩ : ∃ (p : Fin 10000) (q : Fin 128), j = ix2 p q := ⟨j 0, j 1, eq_ix2 j⟩
  show k2_pay1 (iblk2 V c 0 t) (iblk2 V c 1 t) (ix2 p q)
    = Spec.rowScale (V c main_v18) (V c main_v6) (((cfg2.win 2).blk t).view.emb (ix2 p q))
  rw [pay2_apply]
  unfold Spec.rowScale
  refine congrArg₂ (· * ·) ?_ ?_
  · -- the feature entry: the input's block sits where the output's does
    show V c main_v18 (((cfg2.win 0).blk t).view.emb (ix2 p q)) = V c main_v18 (((cfg2.win 2).blk t).view.emb (ix2 p q))
    refine congrArg (V c main_v18) (funext fun a => Fin.ext ?_)
    match a with
    | ⟨0, _⟩ => show win2_0.index t (0 : Fin 2) * 10000 + 1 * p.val = win2_2.index t (0 : Fin 2) * 10000 + 1 * p.val; omega
    | ⟨1, _⟩ => show win2_0.index t (1 : Fin 2) * 128 + 1 * q.val = win2_2.index t (1 : Fin 2) * 128 + 1 * q.val; omega
  · -- the row's factor: the column's block starts at the same row, and has the one column
    show V c main_v6 (((cfg2.win 1).blk t).view.emb (ix2 p (0 : Fin 1)))
      = V c main_v6 (ix2 ((((cfg2.win 2).blk t).view.emb (ix2 p q)) 0) (0 : Fin 1))
    refine congrArg (V c main_v6) (funext fun a => Fin.ext ?_)
    match a with
    | ⟨0, _⟩ => show win2_1.index t (0 : Fin 2) * 10000 + 1 * p.val = win2_2.index t (0 : Fin 2) * 10000 + 1 * p.val; omega
    | ⟨1, _⟩ => show win2_1.index t (1 : Fin 2) * 1 + 1 * 0 = 0; omega

/-- An index of the array is in point `t`'s block iff each coordinate is in the block's range on its axis. -/
theorem mem_blk2 (t : Fin cfg2.N) (i : S100000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole (Pipeline.arrRef spec2 2)).slice (win2_2.rect t)).set ↔ _
  rw [View.set_slice_whole, Rect.mem_set_unit]
  exact Iff.rfl

/-- The output's blocks tile the array: row `r` is in the block of point `r / 10000`, which writes it back. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨-, -, -, -, e20, e21⟩ := index_facts2 t
  refine ⟨t, flush2_2 t, ?_⟩
  rw [mem_blk2]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 128 ≤ (i 1).val ∧ (i 1).val < win2_2.index t (1 : Fin 2) * 128 + 128
    omega

/-- After region 2 its output array holds the rows of its first operand scaled by its second, whatever the
    two arrays held when the region was entered. -/
theorem scale2_final (c : Dev nD) :
    (dat2 (F := Ideal) V c).arrAt 2 cfg2.N = Spec.rowScale (V c main_v18) (V c main_v6) := by
  exact (dat2 (F := Ideal) V c).arrAt_eq_of_cover 2 (Spec.rowScale (V c main_v18) (V c main_v6))
    (fun t _ => flushed2_eq V c t) cover2

end Cert.KernelIdeal.Value.Region2

end
-- ==== Proof.Val.Scale3.lean ====
/-
  Region 3's output array after the region: the feature rows scaled.
-/
import proofs.«107001_j26216480375292_1_alg».proof.Proof.KI.Reg3
import proofs.«107001_j26216480375292_1_alg».proof.Proof.Val.Spec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Value.Region3

open Cert.KernelIdeal Cert.KernelIdeal.Gen Cert.KernelIdeal.Frame
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The zero offsets of a whole-block rectangle, as the constant function. -/
theorem zero_off3 : (![0, 0] : Fin 2 → Nat) = fun _ => 0 := funext fun a => by fin_cases a <;> rfl

/-- The printed index maps, decided over the grid: at point `t` every window's block index is `(t, 0)`. -/
theorem index_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- The body's payload at an index: the feature entry times its row's factor. -/
theorem pay3_apply (x0 : FVec Ideal S10000x128 .f32) (x1 : FVec Ideal S10000x1 .f32) (p : Fin 10000) (q : Fin 128) :
    k3_pay1 x0 x1 (ix2 p q) = x0 (ix2 p q) * x1 (ix2 p (0 : Fin 1)) := by
  unfold k3_pay1
  simp only [shapeCast_self]
  rw [mulf_apply]
  congr 1
  refine broadcastTo_apply _ _ _ _ fun a => ?_
  match a with
  | ⟨0, _⟩ => rfl
  | ⟨1, _⟩ => rfl

/-- What point `t` writes back is block `t` of the scaled rows of the two arrays as the region finds them. -/
theorem flushed3_eq (c : Dev nD) (t : Fin cfg3.N) :
    (dat3 (F := Ideal) V c).flushed 2 t
      = ((cfg3.win 2).blk t).view.read (Elt Ideal) (Spec.rowScale (V c main_v29) (V c main_v6)) := by
  show (cfg3.win 2).cut (grid3.coords t) ((dat3 (F := Ideal) V c).after 2 t) = _
  rw [after3_2]
  unfold out3_2
  rw [View.canon_unit_zero zero_off3]
  simp only [View.ld_unit_zero (S := S10000x128) zero_off3, View.ld_unit_zero (S := S10000x1) zero_off3]
  obtain ⟨e00, e01, e10, e11, e20, e21⟩ := index_facts3 t
  funext j
  obtain ⟨p, q, rfl⟩ : ∃ (p : Fin 10000) (q : Fin 128), j = ix2 p q := ⟨j 0, j 1, eq_ix2 j⟩
  show k3_pay1 (iblk3 V c 0 t) (iblk3 V c 1 t) (ix2 p q)
    = Spec.rowScale (V c main_v29) (V c main_v6) (((cfg3.win 2).blk t).view.emb (ix2 p q))
  rw [pay3_apply]
  unfold Spec.rowScale
  refine congrArg₂ (· * ·) ?_ ?_
  · -- the feature entry: the input's block sits where the output's does
    show V c main_v29 (((cfg3.win 0).blk t).view.emb (ix2 p q)) = V c main_v29 (((cfg3.win 2).blk t).view.emb (ix2 p q))
    refine congrArg (V c main_v29) (funext fun a => Fin.ext ?_)
    match a with
    | ⟨0, _⟩ => show win3_0.index t (0 : Fin 2) * 10000 + 1 * p.val = win3_2.index t (0 : Fin 2) * 10000 + 1 * p.val; omega
    | ⟨1, _⟩ => show win3_0.index t (1 : Fin 2) * 128 + 1 * q.val = win3_2.index t (1 : Fin 2) * 128 + 1 * q.val; omega
  · -- the row's factor: the column's block starts at the same row, and has the one column
    show V c main_v6 (((cfg3.win 1).blk t).view.emb (ix2 p (0 : Fin 1)))
      = V c main_v6 (ix2 ((((cfg3.win 2).blk t).view.emb (ix2 p q)) 0) (0 : Fin 1))
    refine congrArg (V c main_v6) (funext fun a => Fin.ext ?_)
    match a with
    | ⟨0, _⟩ => show win3_1.index t (0 : Fin 2) * 10000 + 1 * p.val = win3_2.index t (0 : Fin 2) * 10000 + 1 * p.val; omega
    | ⟨1, _⟩ => show win3_1.index t (1 : Fin 2) * 1 + 1 * 0 = 0; omega

/-- An index of the array is in point `t`'s block iff each coordinate is in the block's range on its axis. -/
theorem mem_blk3 (t : Fin cfg3.N) (i : S100000x128.Idx) :
    i ∈ ((cfg3.win 2).blk t).view.set ↔ ∀ a : Fin 2, win3_2.index t a * S10000x128.size a ≤ (i a).val
      ∧ (i a).val < win3_2.index t a * S10000x128.size a + S10000x128.size a := by
  show i ∈ ((View.whole (Pipeline.arrRef spec3 2)).slice (win3_2.rect t)).set ↔ _
  rw [View.set_slice_whole, Rect.mem_set_unit]
  exact Iff.rfl

/-- The output's blocks tile the array: row `r` is in the block of point `r / 10000`, which writes it back. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 10 := N_3
  obtain ⟨t, ht⟩ : ∃ t : Fin cfg3.N, t.val = (i 0).val / 10000 := ⟨⟨(i 0).val / 10000, by rw [hN]; omega⟩, rfl⟩
  obtain ⟨-, -, -, -, e20, e21⟩ := index_facts3 t
  refine ⟨t, flush3_2 t, ?_⟩
  rw [mem_blk3]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 128 ≤ (i 1).val ∧ (i 1).val < win3_2.index t (1 : Fin 2) * 128 + 128
    omega

/-- After region 3 its output array holds the rows of its first operand scaled by its second, whatever the
    two arrays held when the region was entered. -/
theorem scale3_final (c : Dev nD) :
    (dat3 (F := Ideal) V c).arrAt 2 cfg3.N = Spec.rowScale (V c main_v29) (V c main_v6) := by
  exact (dat3 (F := Ideal) V c).arrAt_eq_of_cover 2 (Spec.rowScale (V c main_v29) (V c main_v6))
    (fun t _ => flushed3_eq V c t) cover3

end Cert.KernelIdeal.Value.Region3

end
-- ==== Proof.Val.Lin4.lean ====
/-
  Region 4's output array after the region: the projection of the stacked features.
-/
import proofs.«107001_j26216480375292_1_alg».proof.Proof.KI.Reg4
import proofs.«107001_j26216480375292_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Value

open Cert.KernelIdeal Cert.KernelIdeal.Gen Cert.KernelIdeal.Frame
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The body's payload at an index -/

/-- The left operand's index for output index `i` and contraction index `q`: its row is the output's row, -/
theorem lhs_k4_0 (i : S5000x128.Idx) (q : dot_S5000x384_S384x128_S5000x128_1_0_0_1_n_n.contr.Idx) :
    (dot_S5000x384_S384x128_S5000x128_1_0_0_1_n_n.lhsIdx i q 0).val = (i 0).val := by
  unfold DotDims.lhsIdx
  rw [dif_neg (show ¬(0 : Fin S5000x384.rank) ∈ dot_S5000x384_S384x128_S5000x128_1_0_0_1_n_n.lhsBatch by decide), dif_pos (show (0 : Fin S5000x384.rank) ∈ dot_S5000x384_S384x128_S5000x128_1_0_0_1_n_n.lhsNonContracting by decide)]
  rfl
/-- its column the contraction index. -/
theorem lhs_k4_1 (i : S5000x128.Idx) (q : dot_S5000x384_S384x128_S5000x128_1_0_0_1_n_n.contr.Idx) :
    (dot_S5000x384_S384x128_S5000x128_1_0_0_1_n_n.lhsIdx i q 1).val = (q ⟨0, by decide⟩).val :=
  dot_S5000x384_S384x128_S5000x128_1_0_0_1_n_n.lhsIdx_val_of_single rfl i q
/-- The right operand's index: its row is the contraction index, -/
theorem rhs_k4_0 (i : S5000x128.Idx) (q : dot_S5000x384_S384x128_S5000x128_1_0_0_1_n_n.contr.Idx) :
    (dot_S5000x384_S384x128_S5000x128_1_0_0_1_n_n.rhsIdx i q 0).val = (q ⟨0, by decide⟩).val :=
  dot_S5000x384_S384x128_S5000x128_1_0_0_1_n_n.rhsIdx_val_of_single rfl i q
/-- its column the output's column. -/
theorem rhs_k4_1 (i : S5000x128.Idx) (q : dot_S5000x384_S384x128_S5000x128_1_0_0_1_n_n.contr.Idx) :
    (dot_S5000x384_S384x128_S5000x128_1_0_0_1_n_n.rhsIdx i q 1).val = (i 1).val := by
  unfold DotDims.rhsIdx
  rw [dif_neg (show ¬(1 : Fin S384x128.rank) ∈ dot_S5000x384_S384x128_S5000x128_1_0_0_1_n_n.rhsBatch by decide), dif_pos (show (1 : Fin S384x128.rank) ∈ dot_S5000x384_S384x128_S5000x128_1_0_0_1_n_n.rhsNonContracting by decide)]
  rfl

/-- The product of the two blocks into the zero accumulator, at entry `(p, q)`: the sum over the 384 features. -/
theorem matmul4_apply (a : FVec Ideal S5000x384 .bf16) (b : FVec Ideal S384x128 .bf16) (p : Fin 5000) (q : Fin 128) :
    matmul dot_S5000x384_S384x128_S5000x128_1_0_0_1_n_n none a b (constant (F := Ideal) S5000x128 .f32 0x00000000#32) (ix2 p q)
      = ∑ k : Fin 384, a (ix2 p k) * b (ix2 k q) := by
  simp only [matmul]
  rw [Ideal.matmul_constant_zero_apply, ← Equiv.sum_comp (ValueIdx.contrEquiv1 dot_S5000x384_S384x128_S5000x128_1_0_0_1_n_n 384 rfl rfl).symm]
  refine Finset.sum_congr rfl fun k _ => ?_
  have hk := ValueIdx.contrEquiv1_symm_val dot_S5000x384_S384x128_S5000x128_1_0_0_1_n_n 384 rfl rfl k
  have el : dot_S5000x384_S384x128_S5000x128_1_0_0_1_n_n.lhsIdx (ix2 p q) ((ValueIdx.contrEquiv1 dot_S5000x384_S384x128_S5000x128_1_0_0_1_n_n 384 rfl rfl).symm k) = ix2 p k := funext fun a => Fin.ext (by
    match a with
    | ⟨0, _⟩ => exact lhs_k4_0 _ _
    | ⟨1, _⟩ => exact (lhs_k4_1 _ _).trans hk)
  have er : dot_S5000x384_S384x128_S5000x128_1_0_0_1_n_n.rhsIdx (ix2 p q) ((ValueIdx.contrEquiv1 dot_S5000x384_S384x128_S5000x128_1_0_0_1_n_n 384 rfl rfl).symm k) = ix2 k q := funext fun a => Fin.ext (by
    match a with
    | ⟨0, _⟩ => exact (rhs_k4_0 _ _).trans hk
    | ⟨1, _⟩ => exact rhs_k4_1 _ _)
  rw [el, er]

/-- The bias row spread over the block's rows, at entry `(p, q)`: the row's entry `q`. -/
theorem bias4_apply (x2 : Vec Ideal S1x128 .f32) (p : Fin 5000) (q : Fin 128) :
    broadcastTo S5000x128 (shapeCast S1x128 x2 shapeCasts_S1x128_S1x128) broadcasts_S1x128_S5000x128 (ix2 p q) = x2 (ix2 (0 : Fin 1) q) := by
  rw [shapeCast_self]
  exact broadcastTo_apply x2 broadcasts_S1x128_S5000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- The payload at entry `(p, q)` of the block: the row of features times the column of weights, plus the bias. -/
theorem pay4_apply (x0 : Vec Ideal S5000x384 .f32) (x1 : Vec Ideal S384x128 .f32) (x2 : Vec Ideal S1x128 .f32) (p : Fin 5000) (q : Fin 128) :
    k4_pay1 (F := Ideal) x0 x1 x2 (ix2 p q) = (∑ k : Fin 384, x0 (ix2 p k) * x1 (ix2 k q)) + x2 (ix2 (0 : Fin 1) q) := by
  unfold k4_pay1
  rw [addf_apply, matmul4_apply, bias4_apply, shapeCast_self, shapeCast_self]
  rfl

/-! ## From blocks to the array -/

/-- The whole-block rectangles start at the origin. -/
theorem origin4 : (![0, 0] : Fin 2 → Nat) = fun _ => 0 := funext fun a => by
  match a with
  | ⟨0, _⟩ => rfl
  | ⟨1, _⟩ => rfl

/-- The printed index maps over the grid: the features' block and the output's block go down the rows together, one
    block per point, in block column 0; the weights and the bias stay at block (0, 0). -/
theorem idx_maps4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The payload of three blocks at a block entry `y` is the projection of three arrays at an array entry `i`, once the
    blocks' row `y 0`, column `y 1` and bias entry are the arrays' row `i 0`, column `i 1` and bias entry. -/
theorem pay4_eq_project (A : FVec Ideal S100000x384 .f32) (W : FVec Ideal S384x128 .f32) (B : FVec Ideal S1x128 .f32)
    (x0 : Vec Ideal S5000x384 .f32) (x1 : Vec Ideal S384x128 .f32) (x2 : Vec Ideal S1x128 .f32)
    (y : S5000x128.Idx) (i : S100000x128.Idx)
    (h0 : ∀ k : Fin 384, x0 (ix2 (y 0) k) = A (ix2 (i 0) k))
    (h1 : ∀ k : Fin 384, x1 (ix2 k (y 1)) = W (ix2 k (i 1)))
    (h2 : x2 (ix2 (0 : Fin 1) (y 1)) = B (ix2 (0 : Fin 1) (i 1))) :
    k4_pay1 (F := Ideal) x0 x1 x2 y = Spec.project A W B i := by
  obtain ⟨p, q, rfl⟩ : ∃ (p : Fin 5000) (q : Fin 128), y = ix2 p q := ⟨y 0, y 1, eq_ix2 y⟩
  rw [pay4_apply]
  unfold Spec.project
  exact congrArg₂ (· + ·) (Finset.sum_congr rfl fun k _ => congrArg₂ (· * ·) (h0 k) (h1 k)) h2

/-- What point `t` writes back is block `t` of the projection of the three arrays as the region finds them. -/
theorem flushed4_eq (c : Dev nD) (t : Fin cfg4.N) :
    (dat4 (F := Ideal) V c).flushed 3 t
      = ((cfg4.win 3).blk t).view.read (Elt Ideal) (Spec.project (V c main_v31) (V c main_v32) (V c main_v33)) := by
  show (cfg4.win 3).cut (grid4.coords t) ((dat4 V c).after 3 t) = _
  rw [after4_3]
  unfold out4_3
  rw [View.canon_unit_zero origin4]
  simp only [View.ld_unit_zero (S := S5000x384) origin4, View.ld_unit_zero (S := S384x128) origin4, View.ld_unit_zero (S := S1x128) origin4]
  obtain ⟨e0, e1, e2, e3, e4, e5, e6, e7⟩ := idx_maps4 t
  funext j
  show k4_pay1 (F := Ideal) (iblk4 V c 0 t) (iblk4 V c 1 t) (iblk4 V c 2 t) ((cfg4.win 3).xinj (grid4.coords t) j)
    = Spec.project (V c main_v31) (V c main_v32) (V c main_v33) (((cfg4.win 3).blk t).view.emb j)
  refine pay4_eq_project _ _ _ _ _ _ _ _ (fun k => ?_) (fun k => ?_) ?_
  · show V c main_v31 (((cfg4.win 0).blk t).view.emb (ix2 ((cfg4.win 3).xinj (grid4.coords t) j 0) k))
      = V c main_v31 (ix2 (((cfg4.win 3).blk t).view.emb j 0) k)
    refine congrArg _ (funext fun a => Fin.ext ?_)
    match a with
    | ⟨0, _⟩ => show win4_0.index t (0 : Fin 2) * 5000 + 1 * (j 0).val = win4_3.index t (0 : Fin 2) * 5000 + 1 * (j 0).val; omega
    | ⟨1, _⟩ => show win4_0.index t (1 : Fin 2) * 384 + 1 * k.val = k.val; omega
  · show V c main_v32 (((cfg4.win 1).blk t).view.emb (ix2 k ((cfg4.win 3).xinj (grid4.coords t) j 1)))
      = V c main_v32 (ix2 k (((cfg4.win 3).blk t).view.emb j 1))
    refine congrArg _ (funext fun a => Fin.ext ?_)
    match a with
    | ⟨0, _⟩ => show win4_1.index t (0 : Fin 2) * 384 + 1 * k.val = k.val; omega
    | ⟨1, _⟩ => show win4_1.index t (1 : Fin 2) * 128 + 1 * (j 1).val = win4_3.index t (1 : Fin 2) * 128 + 1 * (j 1).val; omega
  · show V c main_v33 (((cfg4.win 2).blk t).view.emb (ix2 (0 : Fin 1) ((cfg4.win 3).xinj (grid4.coords t) j 1)))
      = V c main_v33 (ix2 (0 : Fin 1) (((cfg4.win 3).blk t).view.emb j 1))
    refine congrArg _ (funext fun a => Fin.ext ?_)
    match a with
    | ⟨0, _⟩ => show win4_2.index t (0 : Fin 2) * 1 + 1 * 0 = 0; omega
    | ⟨1, _⟩ => show win4_2.index t (1 : Fin 2) * 128 + 1 * (j 1).val = win4_3.index t (1 : Fin 2) * 128 + 1 * (j 1).val; omega

/-- An entry of the array is in point `t`'s block iff each coordinate is in the block's range on its axis. -/
theorem mem_blk4 (t : Fin cfg4.N) (i : S100000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v34).slice (win4_3.rect t)).set ↔ _
  rw [View.set_slice_whole, Rect.mem_set_unit]
  exact Iff.rfl

/-- Every point's block index on the rows is reached: row block `q` is point `q`'s. -/
theorem idx_onto4 : ∀ q : Fin 20, ∃ t : Fin cfg4.N, win4_3.index t = ![q.val, 0] :=
  (by decide +kernel : ∀ q : Fin 20, ∃ t : Fin grid4.N, win4_3.index t = ![q.val, 0])

/-- The twenty blocks of 5000 rows cover the 100000 rows: row `r` is in the block of point `r / 5000`. -/
theorem cover4 (i : S100000x128.Idx) :
    ∃ t : Fin cfg4.N, (cfg4.win 3).flush t = true ∧ i ∈ ((cfg4.win 3).blk t).view.set := by
  have hi0 : (i 0).val < 100000 := (i 0).isLt
  have hi1 : (i 1).val < 128 := (i 1).isLt
  obtain ⟨t, ht⟩ := idx_onto4 ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_blk4]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 128 ≤ (i 1).val ∧ (i 1).val < win4_3.index t (1 : Fin 2) * 128 + 128; omega

/-- After region 4 its output array holds the projection of its three operands, whatever they held when the
    region was entered. -/
theorem lin4_final (c : Dev nD) :
    (dat4 (F := Ideal) V c).arrAt 3 cfg4.N = Spec.project (V c main_v31) (V c main_v32) (V c main_v33) := by
  exact (dat4 (F := Ideal) V c).arrAt_eq_of_cover 3 (Spec.project (V c main_v31) (V c main_v32) (V c main_v33))
    (fun t _ => flushed4_eq V c t) cover4

end Cert.KernelIdeal.Value

end
-- ==== Proof.Val.Chain.lean ====
/-
  The idealized kernel's result at the ideal instance: at the last boundary of its @main the result's buffer holds
  the specification's `result` of the five argument arrays.

  Each row-scaling call leaves `rowScale` of its two operands in its output array, whatever they held; the operands
  are what the items before left — the features and the per-row factors for the first call, an aggregation of the
  call before and the same factors for the others. So the first hop's output is scale–aggregate–scale of the
  features, the second the same of the first. The projection call leaves `project` of the stacked features, the
  transposed weights and the reshaped bias.
-/
import proofs.«107001_j26216480375292_1_alg».proof.Proof.KI.Launch
import proofs.«107001_j26216480375292_1_alg».proof.Proof.Val.Hosts
import proofs.«107001_j26216480375292_1_alg».proof.Proof.Val.Scale0
import proofs.«107001_j26216480375292_1_alg».proof.Proof.Val.Scale1
import proofs.«107001_j26216480375292_1_alg».proof.Proof.Val.Scale2
import proofs.«107001_j26216480375292_1_alg».proof.Proof.Val.Scale3
import proofs.«107001_j26216480375292_1_alg».proof.Proof.Val.Lin4

set_option maxRecDepth 16384

noncomputable section

namespace Cert.KernelIdeal.Value

open Cert.KernelIdeal Cert.KernelIdeal.Gen Cert.KernelIdeal.Frame
open Idealize.ShloMosaic Idealize.ShloMosaic.TcCoe
open Idealize.SL.Sem
open Idealize.ShloMosaic.Pipeline (Dat)

variable (m : (ℓ : Loc nD τ sig) → Buf (Elt Ideal) ℓ) (ρ : Dev nD → PrngReg)

/-- After the first call: the features' rows scaled. -/
theorem Wo0_scaled (c : Dev nD) :
    Wo0 m ρ c (Proc.devRef .tc main_v7) = Spec.rowScale (ax m c) (Spec.norm (adst m c)) :=
  (Wo0_arr m ρ c 2).trans <| (scale0_final (Vi0 m ρ) c).trans <|
    congrArg₂ Spec.rowScale (Wi0_main_arg0 m ρ c) (Wi0_norm m ρ c)

/-- After the second call: the first hop's output. -/
theorem Wo1_hop1 (c : Dev nD) :
    Wo1 m ρ c (Proc.devRef .tc main_v18) = Spec.hop1 (ax m c) (asrc m c) (adst m c) :=
  (Wo1_arr m ρ c 2).trans <| (Region1.scale1_final (Vi1 m ρ) c).trans <|
    congrArg₂ Spec.rowScale
      ((Wi1_agg m ρ c).trans (congrArg (fun h => Spec.aggregate h (asrc m c) (adst m c)) (Wo0_scaled m ρ c)))
      (Wi1_norm m ρ c)

/-- After the third call: the first hop's output scaled again, the second hop's input. -/
theorem Wo2_scaled (c : Dev nD) :
    Wo2 m ρ c (Proc.devRef .tc main_v19)
      = Spec.rowScale (Spec.hop1 (ax m c) (asrc m c) (adst m c)) (Spec.norm (adst m c)) :=
  (Wo2_arr m ρ c 2).trans <| (Region2.scale2_final (Vi2 m ρ) c).trans <|
    congrArg₂ Spec.rowScale (Wo1_hop1 m ρ c) (Wo1_norm m ρ c)

/-- After the fourth call: the second hop's output. -/
theorem Wo3_hop2 (c : Dev nD) :
    Wo3 m ρ c (Proc.devRef .tc main_v30) = Spec.hop2 (ax m c) (asrc m c) (adst m c) :=
  (Wo3_arr m ρ c 2).trans <| (Region3.scale3_final (Vi3 m ρ) c).trans <|
    congrArg₂ Spec.rowScale
      ((Wi3_agg m ρ c).trans (congrArg (fun h => Spec.aggregate h (asrc m c) (adst m c)) (Wo2_scaled m ρ c)))
      (Wi3_norm m ρ c)

/-- After the projection call: the result. -/
theorem Wo4_result (c : Dev nD) :
    Wo4 m ρ c (Proc.devRef .tc main_v34) = Spec.result (ax m c) (asrc m c) (adst m c) (aW m c) (ab m c) := by
  refine (Wo4_arr m ρ c 3).trans <| (lin4_final (Vi4 m ρ) c).trans ?_
  show Spec.project (Wi4 m ρ c (Proc.devRef .tc main_v31)) (Wi4 m ρ c (Proc.devRef .tc main_v32)) (Wi4 m ρ c (Proc.devRef .tc main_v33)) = _
  rw [Wi4_stack, Wi4_weights, Wi4_bias, Wo3_hop1, Wo1_hop1, Wo3_hop2]
  rfl

/-- The idealized kernel's run with its result named: every weakly fair execution terminates without a fault, the
    result's buffer ends at `Spec.result` of the arguments' launch contents, and the arguments end unchanged. -/
theorem run_value : θ_run defs (onTc (τ := τ) (main (F := Ideal))) ⟨m, fun _ => 0, ρ⟩ (fun r => ∀ c : Dev nD,
      r.2.mem ((c.tc : Thread nD τ).loc main_v34) = Spec.result (ax m c) (asrc m c) (adst m c) (aW m c) (ab m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v34 (by decide))).trans (Wo4_result m ρ c),
     (h c _ (mem_uc main_arg0 (by decide))).trans (Wo4_main_arg0 m ρ c),
     (h c _ (mem_uc main_arg1 (by decide))).trans (Wo4_main_arg1 m ρ c),
     (h c _ (mem_uc main_arg2 (by decide))).trans (Wo4_main_arg2 m ρ c),
     (h c _ (mem_uc main_arg3 (by decide))).trans (Wo4_main_arg3 m ρ c),
     (h c _ (mem_uc main_arg4 (by decide))).trans (Wo4_main_arg4 m ρ c)⟩) (run_all m ρ)

end Cert.KernelIdeal.Value

end
-- ==== Proof.Val.Ref.lean ====
/-
  The reference's result is the specification's `result` of its arguments.
-/
import proofs.«107001_j26216480375292_1_alg».proof.Proof.Gen.ReferenceIdeal.Run
import proofs.«107001_j26216480375292_1_alg».proof.Proof.Gen.ReferenceIdeal.Read
import proofs.«107001_j26216480375292_1_alg».proof.Proof.Val.Spec
import Idealize.ShloMosaic.Lib.ValueIdx
import Idealize.ShloMosaic.Lib.ValueLayout
import Idealize.ShloMosaic.PureOps.Ideal.Laws

noncomputable section

open scoped BigOperators

namespace Cert.ReferenceIdeal.RefValue

open Idealize.ShloMosaic Idealize.ShloMosaic.TcCoe Idealize.ShloMosaic.ValueIdx
open Idealize.SL.Sem

/-- A product with a column broadcast along the rows is the row scaling. -/
theorem mulf_bcast_eq_rowScale (h : FVec Ideal Cert.KernelIdeal.S100000x128 .f32) (n : FVec Ideal Cert.KernelIdeal.S100000x1 .f32)
    (hb : Cert.ReferenceIdeal.S100000x1.BroadcastsInDim Cert.ReferenceIdeal.S100000x128 (![0, 1] : Fin 2 → Fin Cert.ReferenceIdeal.S100000x128.rank)) :
    mulf h (broadcastInDim Cert.ReferenceIdeal.S100000x128 ![0, 1] hb n) = Cert.KernelIdeal.Spec.rowScale h n := by
  funext j
  rw [mulf_apply]
  unfold Cert.KernelIdeal.Spec.rowScale
  refine congrArg (h j * ·) ?_
  exact broadcastInDim_apply _ hb n j (ix2 (j 0) (0 : Fin 1)) (fun a => match a with
    | ⟨0, _⟩ => by show (j 0).val = if (100000 : Nat) = 1 then 0 else (j 0).val; rw [if_neg (by decide)]
    | ⟨1, _⟩ => by show 0 = if (1 : Nat) = 1 then 0 else (j 1).val; rw [if_pos rfl])

/-- The product with the transposed weights plus the bias broadcast over the rows is the projection. -/
theorem addf_dot_eq_project (X : FVec Ideal Cert.KernelIdeal.S100000x384 .f32) (Wt : FVec Ideal Cert.KernelIdeal.S384x128 .f32)
    (b : FVec Ideal Cert.KernelIdeal.S128 .f32)
    (h1 : Cert.ReferenceIdeal.S1x128.BroadcastsInDim Cert.ReferenceIdeal.S100000x128 (![0, 1] : Fin 2 → Fin Cert.ReferenceIdeal.S100000x128.rank))
    (h2 : Cert.ReferenceIdeal.S128.BroadcastsInDim Cert.ReferenceIdeal.S1x128 (![1] : Fin 1 → Fin Cert.ReferenceIdeal.S1x128.rank))
    (h3 : Cert.KernelIdeal.S128.ShapeCasts Cert.KernelIdeal.S1x128) :
    addf (Host.dotGeneral Cert.ReferenceIdeal.dot_S100000x384_S384x128_S100000x128_1_0_0_1_n_n none X Wt)
        (broadcastInDim Cert.ReferenceIdeal.S100000x128 ![0, 1] h1 (broadcastInDim Cert.ReferenceIdeal.S1x128 ![1] h2 b))
      = Cert.KernelIdeal.Spec.project X Wt (shapeCast Cert.KernelIdeal.S1x128 b h3) := by
  funext j
  rw [addf_apply]
  unfold Cert.KernelIdeal.Spec.project
  congr 1
  · simp only [Host.dotGeneral]
    rw [Ideal.dotGeneral_apply,
      ← Equiv.sum_comp (contrEquiv1 Cert.ReferenceIdeal.dot_S100000x384_S384x128_S100000x128_1_0_0_1_n_n 384 rfl rfl).symm]
    refine Finset.sum_congr rfl fun k _ => ?_
    have hk := contrEquiv1_symm_val Cert.ReferenceIdeal.dot_S100000x384_S384x128_S100000x128_1_0_0_1_n_n 384 rfl rfl k
    have el : Cert.ReferenceIdeal.dot_S100000x384_S384x128_S100000x128_1_0_0_1_n_n.lhsIdx j
        ((contrEquiv1 Cert.ReferenceIdeal.dot_S100000x384_S384x128_S100000x128_1_0_0_1_n_n 384 rfl rfl).symm k) = ix2 (j 0) k :=
      funext fun a => Fin.ext (by
        match a with
        | ⟨0, _⟩ => exact Cert.ReferenceIdeal.Read.lhs_main_v37_0 _ _
        | ⟨1, _⟩ => exact (Cert.ReferenceIdeal.Read.lhs_main_v37_1 _ _).trans hk)
    have er : Cert.ReferenceIdeal.dot_S100000x384_S384x128_S100000x128_1_0_0_1_n_n.rhsIdx j
        ((contrEquiv1 Cert.ReferenceIdeal.dot_S100000x384_S384x128_S100000x128_1_0_0_1_n_n 384 rfl rfl).symm k) = ix2 k (j 1) :=
      funext fun a => Fin.ext (by
        match a with
        | ⟨0, _⟩ => exact (Cert.ReferenceIdeal.Read.rhs_main_v37_0 _ _).trans hk
        | ⟨1, _⟩ => exact Cert.ReferenceIdeal.Read.rhs_main_v37_1 _ _)
    rw [el, er]
    rfl
  · refine (broadcastInDim_apply _ h1 _ j (ix2 (0 : Fin 1) (j 1)) (fun a => match a with
      | ⟨0, _⟩ => by show 0 = if (1 : Nat) = 1 then 0 else (j 0).val; rw [if_pos rfl]
      | ⟨1, _⟩ => by show (j 1).val = if (128 : Nat) = 1 then 0 else (j 1).val; rw [if_neg (by decide)])).trans ?_
    refine (broadcastInDim_apply _ h2 b (ix2 (0 : Fin 1) (j 1)) (ix1 (j 1)) (fun a => match a with
      | ⟨0, _⟩ => by show (j 1).val = if (128 : Nat) = 1 then 0 else (j 1).val; rw [if_neg (by decide)])).trans ?_
    exact (shapeCast_a_1a_apply b h3 (0 : Fin 1) (j 1)).symm

section Stages

open Cert.ReferenceIdeal.Read Cert.KernelIdeal.Spec

variable (x0 : FVec Ideal Cert.KernelIdeal.S100000x128 .f32) (x1 x2 : IVec Cert.KernelIdeal.S1600000 32)
  (x3 : FVec Ideal Cert.KernelIdeal.S128x384 .f32) (x4 : FVec Ideal Cert.KernelIdeal.S128 .f32)

/-- The reference's per-row factors are the specification's. -/
theorem v6_eq : val_main_v6 (F := Ideal) x2 = norm x2 := rfl

/-- The reference's start indices, first hop. -/
theorem v14_eq : val_main_v14 (F := Ideal) x1 = srcIdx x1 := rfl

/-- The reference's start indices, second hop. -/
theorem v28_eq : val_main_v28 (F := Ideal) x1 = srcIdx x1 := rfl

/-- The first hop's gather and scatter-add of any rows is their aggregation. -/
theorem agg1_eq (h : FVec Ideal Cert.KernelIdeal.S100000x128 .f32) :
    Host.scatterAdd Cert.ReferenceIdeal.scatter_S100000x128_S1600000x1_S1600000x128_1_0_0_1 (val_main_v16 (F := Ideal)) (val_main_v17 (F := Ideal) x2)
        (Host.gather Cert.ReferenceIdeal.gather_S100000x128_S1600000x1_S1600000x128_1_0_n_n_0_1_1128 h (srcIdx x1))
      = aggregate h x1 x2 := rfl

/-- The second hop's gather and scatter-add of any rows is their aggregation. -/
theorem agg2_eq (h : FVec Ideal Cert.KernelIdeal.S100000x128 .f32) :
    Host.scatterAdd Cert.ReferenceIdeal.scatter_S100000x128_S1600000x1_S1600000x128_1_0_0_1 (val_main_v30 (F := Ideal)) (val_main_v31 (F := Ideal) x2)
        (Host.gather Cert.ReferenceIdeal.gather_S100000x128_S1600000x1_S1600000x128_1_0_n_n_0_1_1128 h (srcIdx x1))
      = aggregate h x1 x2 := rfl

/-- The reference's concatenation of three blocks is the specification's stack. -/
theorem stack_eq (a b c : FVec Ideal Cert.KernelIdeal.S100000x128 .f32) :
    concatenate Cert.ReferenceIdeal.S100000x384 1 [⟨Cert.ReferenceIdeal.S100000x128, a⟩, ⟨Cert.ReferenceIdeal.S100000x128, b⟩, ⟨Cert.ReferenceIdeal.S100000x128, c⟩]
        Cert.ReferenceIdeal.Gen.concatenates_S100000x128_S100000x128_S100000x128_S100000x384_d1
      = stack a b c := rfl

/-- The features scaled by the row factors. -/
theorem v8_eq : val_main_v8 (F := Ideal) x0 x2 = rowScale x0 (norm x2) := by
  unfold val_main_v8 val_main_v7
  rw [v6_eq]
  exact mulf_bcast_eq_rowScale _ _ _

/-- The first aggregation. -/
theorem v18_eq : val_main_v18 (F := Ideal) x0 x1 x2 = aggregate (rowScale x0 (norm x2)) x1 x2 := by
  unfold val_main_v18 val_main_v15
  rw [v8_eq, v14_eq]
  exact agg1_eq x1 x2 _

/-- The first hop. -/
theorem v20_eq : val_main_v20 (F := Ideal) x0 x1 x2 = hop1 x0 x1 x2 := by
  unfold val_main_v20 val_main_v19 hop1
  rw [v18_eq, v6_eq]
  exact mulf_bcast_eq_rowScale _ _ _

/-- The first hop scaled again. -/
theorem v22_eq : val_main_v22 (F := Ideal) x0 x1 x2 = rowScale (hop1 x0 x1 x2) (norm x2) := by
  unfold val_main_v22 val_main_v21
  rw [v20_eq, v6_eq]
  exact mulf_bcast_eq_rowScale _ _ _

/-- The second aggregation. -/
theorem v32_eq : val_main_v32 (F := Ideal) x0 x1 x2 = aggregate (rowScale (hop1 x0 x1 x2) (norm x2)) x1 x2 := by
  unfold val_main_v32 val_main_v29
  rw [v22_eq, v28_eq]
  exact agg2_eq x1 x2 _

/-- The second hop. -/
theorem v34_eq : val_main_v34 (F := Ideal) x0 x1 x2 = hop2 x0 x1 x2 := by
  unfold val_main_v34 val_main_v33 hop2
  rw [v32_eq, v6_eq]
  exact mulf_bcast_eq_rowScale _ _ _

/-- The three blocks side by side. -/
theorem v35_eq : val_main_v35 (F := Ideal) x0 x1 x2 = stack x0 (hop1 x0 x1 x2) (hop2 x0 x1 x2) := by
  unfold val_main_v35
  rw [v20_eq, v34_eq]
  exact stack_eq _ _ _

/-- The reference's last stage is the specification's result. -/
theorem v40_eq : val_main_v40 (F := Ideal) x0 x1 x2 x3 x4 = result x0 x1 x2 x3 x4 := by
  unfold val_main_v40 val_main_v37 val_main_v39 val_main_v38 val_main_v36 result
  rw [v35_eq]
  exact addf_dot_eq_project _ _ _ _ _ _

end Stages

/-- The reference's composed term for its result is `Spec.result` of the five argument arrays. -/
theorem res_eq (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v40 (F := Ideal) m c
      = Cert.KernelIdeal.Spec.result
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4)) := by
  exact (Cert.ReferenceIdeal.Read.val_main_v40_eq m c).trans (v40_eq _ _ _ _ _)

end Cert.ReferenceIdeal.RefValue

end
-- ==== Proof.lean ====
/-
  The certificate of the two-hop normalized neighbour aggregation with its concat-and-project layer: the kernel
  computes, with five pallas_calls among the host's gathers and scatter-adds, what the reference computes with
  plain array operations.

  With `n` the column of per-row factors (in-degree to the power −1/2), one hop takes `h` to
  `n ⊙ A (n ⊙ h)`, where `A` adds each edge's source row into its destination row; the result is
  `[x | hop x | hop (hop x)] · Wᵀ + b`. The kernel does each row scaling `n ⊙ ·` in a pipelined call over blocks of
  10000 rows and the projection in a call over blocks of 5000 rows (casting its operands to bf16 first, which at
  the ideal instance changes nothing); the degree count, the power, the gathers and the scatter-adds are the same
  host operations in both programs. Over the extended reals the two results are one function of the arguments,
  with no law beyond reading each blockwise call as a whole-array function — so the precondition is never opened.

  The three frames: each program terminates from any memory with zero counters, faults nowhere and leaves its five
  arguments unchanged — for the kernel and its idealization by running @main item by item (Proof/K, Proof/KI), for
  the reference by its straight-line run. The ideal pass rewrote nothing, so `preserves` is trivial.
-/
import proofs.«107001_j26216480375292_1_alg».proof.Defs
import proofs.«107001_j26216480375292_1_alg».proof.Proof.Gen.Kernel
import proofs.«107001_j26216480375292_1_alg».proof.Proof.Gen.KernelIdeal
import proofs.«107001_j26216480375292_1_alg».proof.Proof.Gen.ReferenceIdeal
import proofs.«107001_j26216480375292_1_alg».proof.Proof.Gen.Pre_finite_inputs
import proofs.«107001_j26216480375292_1_alg».proof.Proof.Gen.ReferenceIdeal.Run
import proofs.«107001_j26216480375292_1_alg».proof.Proof.K.Args
import proofs.«107001_j26216480375292_1_alg».proof.Proof.KI.Args
import proofs.«107001_j26216480375292_1_alg».proof.Proof.Val.Chain
import proofs.«107001_j26216480375292_1_alg».proof.Proof.Val.Ref
import Idealize.ShloMosaic.Adequacy
import Idealize.ShloMosaic.Init

noncomputable section

namespace Cert.Proof

open Idealize.ShloMosaic Idealize.SL.Sem

theorem frame_k : Cert.frame_Kernel := fun m ρ _ => Cert.Kernel.Frame.frame m ρ
theorem frame_ki : Cert.frame_KernelIdeal := fun m ρ _ => Cert.KernelIdeal.Frame.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification's `result` of the (agreeing) arguments in their result
    buffers. -/
theorem algebraic : Cert.algebraic_KernelIdeal_ReferenceIdeal := by
  intro m ρ m' ρ' _ hagree
  refine ⟨fun c => Cert.KernelIdeal.Spec.result (Cert.KernelIdeal.Value.ax m c) (Cert.KernelIdeal.Value.asrc m c)
      (Cert.KernelIdeal.Value.adst m c) (Cert.KernelIdeal.Value.aW m c) (Cert.KernelIdeal.Value.ab m c),
    Cert.KernelIdeal.Value.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
